-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S512x128 : Shape := ⟨2, ![512, 128]⟩
abbrev S128 : Shape := ⟨1, ![128]⟩
abbrev S256x3 : Shape := ⟨2, ![256, 3]⟩
abbrev S3 : Shape := ⟨1, ![3]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S256x3 .f32) (main_arg8 : FVec F S3 .f32) (main_v33 : IVec S_ 1) : IVec S_ 1 :=
  let main_v34 : FVec F S256x3 .f32 := Host.absf main_arg7
  let main_cst_12 : FVec F S_ .f32 := constant S_ .f32 0x7F800000#32
  let main_v35 : FVec F S256x3 .f32 := broadcastInDim S256x3 ![] bcast_S_S256x3 main_cst_12
  let main_v36 : IVec S256x3 1 := cmpf .olt main_v34 main_v35
  let main_c_13 : IVec S_ 1 := constantI S_ 1 1#1
  let main_v37 : IVec S_ 1 := (fun x v => Host.reduce IntOp.andi x v reducesTo_S256x3_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S128 .f32) (main_arg5 : FVec F S512x128 .f32) (main_arg6 : FVec F S128 .f32) (main_arg7 : FVec F S256x3 .f32) (main_arg8 : FVec F S3 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x256 .f32) (main_arg1 : FVec F S100000x256 .f32) (main_arg2 : FVec F S100000x256 .f32) (main_arg3 : FVec F S512x128 .f32) (main_arg4 : FVec F S128 .f32) (main_arg5 : FVec F S512x128 .f32) (main_arg6 : FVec F S128 .f32) (main_arg7 : FVec F S256x3 .f32) (main_arg8 : FVec F S3 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S100000x256 .f32 := Host.absf main_arg2
  let main_cst_2 : FVec F S_ .f32 := constant S_ .f32 0x7F800000#32
  let main_v10 : FVec F S100000x256 .f32 := broadcastInDim S100000x256 ![] bcast_S_S100000x256 main_cst_2
  let main_v11 : IVec S100000x256 1 := cmpf .olt main_v9 main_v10
  let main_c_3 : IVec S_ 1 := constantI S_ 1 1#1
  let main_v12 : IVec S_ 1 := (fun x v => Host.reduce IntOp.andi x v reducesTo_S100000x256_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_v13 main_v16
-- ==== Kernel.lean ====
abbrev S100000x256 : Shape := ⟨2, ![100000, 256]⟩
abbrev S512x128 : Shape := ⟨2, ![512, 128]⟩
abbrev S128 : Shape := ⟨1, ![128]⟩
abbrev S256x3 : Shape := ⟨2, ![256, 3]⟩
abbrev S3 : Shape := ⟨1, ![3]⟩
abbrev S256x128 : Shape := ⟨2, ![256, 128]⟩
abbrev S256x512 : Shape := ⟨2, ![256, 512]⟩
abbrev S256 : Shape := ⟨1, ![256]⟩
abbrev S1x256 : Shape := ⟨2, ![1, 256]⟩
abbrev S1x3 : Shape := ⟨2, ![1, 3]⟩
abbrev S100000x3 : Shape := ⟨2, ![100000, 3]⟩
abbrev S7168x256 : Shape := ⟨2, ![7168, 256]⟩
abbrev S7168x3 : Shape := ⟨2, ![7168, 3]⟩
abbrev S256x256 : Shape := ⟨2, ![256, 256]⟩
abbrev S7168x128 : Shape := ⟨2, ![7168, 128]⟩
abbrev S1x128 : Shape := ⟨2, ![1, 128]⟩
abbrev S128x3 : Shape := ⟨2, ![128, 3]⟩

abbrev nBuf : Space → Nat
  | .hbm => 20
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S100000x256, .f32⟩
  | .hbm, ⟨3, _⟩ => ⟨S512x128, .f32⟩
  | .hbm, ⟨4, _⟩ => ⟨S128, .f32⟩
  | .hbm, ⟨5, _⟩ => ⟨S512x128, .f32⟩
  | .hbm, ⟨6, _⟩ => ⟨S128, .f32⟩
  | .hbm, ⟨7, _⟩ => ⟨S256x3, .f32⟩
  | .hbm, ⟨8, _⟩ => ⟨S3, .f32⟩
  | .hbm, ⟨9, _⟩ => ⟨S256x128, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S256x512, .f32⟩
  | .hbm, ⟨14, _⟩ => ⟨S256x512, .bf16⟩
  | .hbm, ⟨15, _⟩ => ⟨S256, .f32⟩
  | .hbm, ⟨16, _⟩ => ⟨S1x256, .f32⟩
  | .hbm, ⟨17, _⟩ => ⟨S256x3, .bf16⟩
  | .hbm, ⟨18, _⟩ => ⟨S1x3, .f32⟩
  | .hbm, ⟨19, _⟩ => ⟨S100000x3, .f32⟩
  | .local _ .vmem, ⟨0, _⟩ => ⟨S7168x256, .f32⟩
  | .local _ .vmem, ⟨1, _⟩ => ⟨S7168x256, .f32⟩
  | .local _ .vmem, ⟨2, _⟩ => ⟨S7168x256, .f32⟩
  | .local _ .vmem, ⟨3, _⟩ => ⟨S7168x256, .f32⟩
  | .local _ .vmem, ⟨4, _⟩ => ⟨S7168x256, .f32⟩
  | .local _ .vmem, ⟨5, _⟩ => ⟨S7168x256, .f32⟩
  | .local _ .vmem, ⟨6, _⟩ => ⟨S256x512, .bf16⟩
  | .local _ .vmem, ⟨7, _⟩ => ⟨S1x256, .f32⟩
  | .local _ .vmem, ⟨8, _⟩ => ⟨S256x3, .bf16⟩
  | .local _ .vmem, ⟨9, _⟩ => ⟨S1x3, .f32⟩
  | .local _ .vmem, ⟨10, _⟩ => ⟨S7168x3, .f32⟩
  | .local _ .vmem, ⟨11, _⟩ => ⟨S7168x3, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7168x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7168x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7168x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x3 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S7168x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S512x128_S256x128_0_0 : S512x128.Slices ![0, 0] S256x128
  slices_S512x128_S256x128_256_0 : S512x128.Slices ![256, 0] S256x128
  concatenates_S256x128_S256x128_S256x128_S256x128_S256x512_d1 : Shape.Concatenates [S256x128, S256x128, S256x128, S256x128] S256x512 1
  bitsLt_bf16_f32 : FTy.bits .bf16 < FTy.bits .f32
  concatenates_S128_S128_S256_d0 : Shape.Concatenates [S128, S128] S256 0
  shapeCasts_S256_S1x256 : S256.ShapeCasts S1x256
  shapeCasts_S3_S1x3 : S3.ShapeCasts S1x3
  inb_S7168x256_S7168x256_0_0 : ∀ a, (![0, 0] : Fin 2 → Nat) a + S7168x256.size a ≤ S7168x256.size a
  h_S7168x256 : 0 < S7168x256.numel
  inb_S256x512_S256x256_0_256 : ∀ a, (![0, 256] : Fin 2 → Nat) a + S256x256.size a ≤ S256x512.size a
  h_S256x256 : 0 < S256x256.numel
  shapeCasts_S256x256_S256x256 : S256x256.ShapeCasts S256x256
  inb_S256x512_S256x128_0_0 : ∀ a, (![0, 0] : Fin 2 → Nat) a + S256x128.size a ≤ S256x512.size a
  h_S256x128 : 0 < S256x128.numel
  shapeCasts_S256x128_S256x128 : S256x128.ShapeCasts S256x128
  slices_S7168x256_o0_0_S7168x128 : S7168x256.Slices ![0, 0] S7168x128
  inb_S1x256_S1x128_0_0 : ∀ a, (![0, 0] : Fin 2 → Nat) a + S1x128.size a ≤ S1x256.size a
  h_S1x128 : 0 < S1x128.numel
  shapeCasts_S1x128_S1x128 : S1x128.ShapeCasts S1x128
  broadcasts_S1x128_S7168x128 : S1x128.Broadcasts S7168x128
  inb_S256x512_S256x128_0_128 : ∀ a, (![0, 128] : Fin 2 → Nat) a + S256x128.size a ≤ S256x512.size a
  slices_S7168x256_o0_128_S7168x128 : S7168x256.Slices ![0, 128] S7168x128
  inb_S1x256_S1x128_0_128 : ∀ a, (![0, 128] : Fin 2 → Nat) a + S1x128.size a ≤ S1x256.size a
  inb_S256x3_S128x3_0_0 : ∀ a, (![0, 0] : Fin 2 → Nat) a + S128x3.size a ≤ S256x3.size a
  h_S128x3 : 0 < S128x3.numel
  shapeCasts_S128x3_S128x3 : S128x3.ShapeCasts S128x3
  inb_S256x3_S128x3_128_0 : ∀ a, (![128, 0] : Fin 2 → Nat) a + S128x3.size a ≤ S256x3.size a
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S7168x3 : S1x3.Broadcasts S7168x3
  inb_S7168x3_S7168x3_0_0 : ∀ a, (![0, 0] : Fin 2 → Nat) a + S7168x3.size a ≤ S7168x3.size a
  h_S7168x3 : 0 < S7168x3.numel
  dot_S7168x256_S256x256_S7168x256_1_0_0_1_n_n_wf : DotDims.WF S7168x256 S256x256 S7168x256 [1] [0] [0] [1] [] []
  dot_S7168x256_S256x128_S7168x128_1_0_0_1_n_n_wf : DotDims.WF S7168x256 S256x128 S7168x128 [1] [0] [0] [1] [] []
  dot_S7168x128_S128x3_S7168x3_1_0_0_1_n_n_wf : DotDims.WF S7168x128 S128x3 S7168x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S7168x256.size a < S100000x256.size a
  hwx0_0 : ∀ i : grid0.Coords, EltTy.bits .f32 = 32 ∨ (Rect.unit (s := S100000x256) (fun a => cc0_transform_0 i a * S7168x256.size a) (fun a => (Pipeline.Clip.of (cc0_transform_0 i a) (S7168x256.size a) (S100000x256.size a)).extent (S7168x256.size a)) fun a => Pipeline.Clip.inb (Pipeline.Clip.ok_of (hstart0_0 i a))).WholeWords (EltTy.packing .f32)
  hwxs0_0 : ∀ i : grid0.Coords, EltTy.bits .f32 = 32 ∨ (Rect.unit (s := S7168x256) (fun _ => 0) (fun a => (Pipeline.Clip.of (cc0_transform_0 i a) (S7168x256.size a) (S100000x256.size a)).extent (S7168x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S7168x256.size a < S100000x256.size a
  hwx0_1 : ∀ i : grid0.Coords, EltTy.bits .f32 = 32 ∨ (Rect.unit (s := S100000x256) (fun a => cc0_transform_1 i a * S7168x256.size a) (fun a => (Pipeline.Clip.of (cc0_transform_1 i a) (S7168x256.size a) (S100000x256.size a)).extent (S7168x256.size a)) fun a => Pipeline.Clip.inb (Pipeline.Clip.ok_of (hstart0_1 i a))).WholeWords (EltTy.packing .f32)
  hwxs0_1 : ∀ i : grid0.Coords, EltTy.bits .f32 = 32 ∨ (Rect.unit (s := S7168x256) (fun _ => 0) (fun a => (Pipeline.Clip.of (cc0_transform_1 i a) (S7168x256.size a) (S100000x256.size a)).extent (S7168x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S7168x256.size a < S100000x256.size a
  hwx0_2 : ∀ i : grid0.Coords, EltTy.bits .f32 = 32 ∨ (Rect.unit (s := S100000x256) (fun a => cc0_transform_2 i a * S7168x256.size a) (fun a => (Pipeline.Clip.of (cc0_transform_2 i a) (S7168x256.size a) (S100000x256.size a)).extent (S7168x256.size a)) fun a => Pipeline.Clip.inb (Pipeline.Clip.ok_of (hstart0_2 i a))).WholeWords (EltTy.packing .f32)
  hwxs0_2 : ∀ i : grid0.Coords, EltTy.bits .f32 = 32 ∨ (Rect.unit (s := S7168x256) (fun _ => 0) (fun a => (Pipeline.Clip.of (cc0_transform_2 i a) (S7168x256.size a) (S100000x256.size a)).extent (S7168x256.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x3.size a ≤ S256x3.size a
  hwx0_5 : ∀ i : grid0.Coords, EltTy.bits .bf16 = 32 ∨ (Rect.block (s := S256x3) S256x3.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S7168x3.size a < S100000x3.size a
  hwx0_7 : ∀ i : grid0.Coords, EltTy.bits .f32 = 32 ∨ (Rect.unit (s := S100000x3) (fun a => cc0_transform_7 i a * S7168x3.size a) (fun a => (Pipeline.Clip.of (cc0_transform_7 i a) (S7168x3.size a) (S100000x3.size a)).extent (S7168x3.size a)) fun a => Pipeline.Clip.inb (Pipeline.Clip.ok_of (hstart0_7 i a))).WholeWords (EltTy.packing .f32)
  hwxs0_7 : ∀ i : grid0.Coords, EltTy.bits .f32 = 32 ∨ (Rect.unit (s := S7168x3) (fun _ => 0) (fun a => (Pipeline.Clip.of (cc0_transform_7 i a) (S7168x3.size a) (S100000x3.size a)).extent (S7168x3.size a)) fun a => (Nat.zero_add _).trans_le (Pipeline.Clip.extent_le (Pipeline.Clip.ok_of (hstart0_7 i a)))).WholeWords (EltTy.packing .f32)

variable [Facts₀]

def dot_S7168x256_S256x256_S7168x256_1_0_0_1_n_n : DotDims S7168x256 S256x256 S7168x256 where
  lhsContracting := [1]
  rhsContracting := [0]
  lhsNonContracting := [0]
  rhsNonContracting := [1]
  lhsBatch := []
  rhsBatch := []
  wf := dot_S7168x256_S256x256_S7168x256_1_0_0_1_n_n_wf
def dot_S7168x256_S256x128_S7168x128_1_0_0_1_n_n : DotDims S7168x256 S256x128 S7168x128 where
  lhsContracting := [1]
  rhsContracting := [0]
  lhsNonContracting := [0]
  rhsNonContracting := [1]
  lhsBatch := []
  rhsBatch := []
  wf := dot_S7168x256_S256x128_S7168x128_1_0_0_1_n_n_wf
def dot_S7168x128_S128x3_S7168x3_1_0_0_1_n_n : DotDims S7168x128 S128x3 S7168x3 where
  lhsContracting := [1]
  rhsContracting := [0]
  lhsNonContracting := [0]
  rhsNonContracting := [1]
  lhsBatch := []
  rhsBatch := []
  wf := dot_S7168x128_S128x3_S7168x3_1_0_0_1_n_n_wf

abbrev win0_0 : Pipeline.Window sig grid0 :=
  Pipeline.Window.ofSpecClip (Memref.whole main_arg0) S7168x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S7168x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S7168x256.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v5) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S256x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v10) S7168x3.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S512x128 : Shape := ⟨2, ![512, 128]⟩
abbrev S128 : Shape := ⟨1, ![128]⟩
abbrev S256x3 : Shape := ⟨2, ![256, 3]⟩
abbrev S3 : Shape := ⟨1, ![3]⟩
abbrev S100000x512 : Shape := ⟨2, ![100000, 512]⟩
abbrev S100000x128 : Shape := ⟨2, ![100000, 128]⟩
abbrev S1x128 : Shape := ⟨2, ![1, 128]⟩
abbrev S_ : Shape := ⟨0, ![]⟩
abbrev S100000x3 : Shape := ⟨2, ![100000, 3]⟩
abbrev S1x3 : Shape := ⟨2, ![1, 3]⟩

abbrev nBuf : Space → Nat
  | .hbm => 30
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S100000x256, .f32⟩
  | .hbm, ⟨3, _⟩ => ⟨S512x128, .f32⟩
  | .hbm, ⟨4, _⟩ => ⟨S128, .f32⟩
  | .hbm, ⟨5, _⟩ => ⟨S512x128, .f32⟩
  | .hbm, ⟨6, _⟩ => ⟨S128, .f32⟩
  | .hbm, ⟨7, _⟩ => ⟨S256x3, .f32⟩
  | .hbm, ⟨8, _⟩ => ⟨S3, .f32⟩
  | .hbm, ⟨9, _⟩ => ⟨S100000x512, .f32⟩
  | .hbm, ⟨10, _⟩ => ⟨S100000x512, .f32⟩
  | .hbm, ⟨11, _⟩ => ⟨S100000x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S_, .f32⟩
  | .hbm, ⟨16, _⟩ => ⟨S100000x128, .f32⟩
  | .hbm, ⟨17, _⟩ => ⟨S100000x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S100000x256, .f32⟩
  | .hbm, ⟨26, _⟩ => ⟨S100000x3, .f32⟩
  | .hbm, ⟨27, _⟩ => ⟨S1x3, .f32⟩
  | .hbm, ⟨28, _⟩ => ⟨S100000x3, .f32⟩
  | .hbm, ⟨29, _⟩ => ⟨S100000x3, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]

class Facts₀ : Prop where
  concatenates_S100000x256_S100000x256_S100000x512_d1 : Shape.Concatenates [S100000x256, S100000x256] S100000x512 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x512_S512x128_S100000x128_1_0_0_1_n_n_wf : DotDims.WF S100000x512 S512x128 S100000x128 [1] [0] [0] [1] [] []
  dot_S100000x256_S256x3_S100000x3_1_0_0_1_n_n_wf : DotDims.WF S100000x256 S256x3 S100000x3 [1] [0] [0] [1] [] []

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x256_S256x3_S100000x3_1_0_0_1_n_n : DotDims S100000x256 S256x3 S100000x3 where
  lhsContracting := [1]
  rhsContracting := [0]
  lhsNonContracting := [0]
  rhsNonContracting := [1]
  lhsBatch := []
  rhsBatch := []
  wf := dot_S100000x256_S256x3_S100000x3_1_0_0_1_n_n_wf

class Facts : Prop extends Facts₀ where

variable [Facts]
-- ==== Proof.KernelPrefix.lean ====
/-
  What the launch finds. Ten operations run before it: four slices of the two first-layer weight matrices, their
  join side by side into one matrix of 512 columns, its change of format, the join of the two first-layer biases
  and its reshape to one row, the change of format of the output weights, and the reshape of the output bias to
  one row. None of them writes an argument, so every argument array enters the launch as it was.
-/
import proofs.«122431_g32006096290012_cont_8to1_b_1154_27_alg».proof.Proof.Gen.Kernel.Launch
import proofs.«122431_g32006096290012_cont_8to1_b_1154_27_alg».proof.Proof.Gen.Kernel.Points
import Idealize.ShloMosaic.Lib.Pipeline.Frame
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- Core `c`'s buffers when the launch is entered: the launch memory after the ten operations. -/
abbrev V (c : Dev nD) (b : Ref sig .tc) : Buf (Elt F) ((c : Thread nD τ).loc b) :=
  StableHlo.after hostOps0 (fun b => m (c, b)) b

/-- None of the ten operations allocates. -/
theorem hostOps0_fresh : (hostOps0 : List (HloOp τ sig (Elt F))).Forall fun op => op.fresh = ∅ := by
  simp only [List.Forall]; repeat' constructor

/-- The program is the ten operations, then the launch. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No operation before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

end Cert.Kernel.Hand

end
-- ==== Proof.KernelFrame.lean ====
/-
  The frame of the program as printed: every argument array ends as it was launched.

  Ten operations run before the launch and none of them writes an argument. The launch stages row blocks of the three
  row-indexed arguments and of the result, and the four packed operands whole, and calls the body at each of the
  fourteen points. The body loads from the staged operands, computes, and stores into the result's staging buffer:
  no branch, address or check depends on a loaded word. At the level of words a matrix product is a function of its
  whole operands, and the last block of each row-indexed argument overhangs the array's end, so what the body
  stores at that point depends on words nothing names. The frame needs none of it: the proof data below relate what
  the body finds in a staging buffer to what it leaves there by the relation that holds of everything, and the
  library then concludes of each input array that it is never written, and of every buffer that bypasses the launch
  that it is as the launch found it.
-/
import proofs.«122431_g32006096290012_cont_8to1_b_1154_27_alg».proof.Defs
import proofs.«122431_g32006096290012_cont_8to1_b_1154_27_alg».proof.Proof.KernelPrefix
import proofs.«122431_g32006096290012_cont_8to1_b_1154_27_alg».proof.Proof.Gen.Kernel.Skeleton
import proofs.«122431_g32006096290012_cont_8to1_b_1154_27_alg».proof.Proof.Gen.Pre_finite_inputs
import Idealize.ShloMosaic.Lib.Pipeline.Frame
import Idealize.ShloMosaic.Lib.Pipeline.Kit
import Idealize.ShloMosaic.Lib.Tactic
import Idealize.ShloMosaic.Adequacy
import Idealize.ShloMosaic.Init

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- The body on any eight whole staging buffers, each at some contents: nine loads in its first part, two more, the
    dead load of the result's buffer, and the store into it. Every buffer comes back at some contents; of which,
    nothing is said. -/
theorem sound_kernel (c : Dev nD) (E : Set ℕ) (i : grid0.Coords)
    (arg1 : Memref sig .tc .vmem S7168x256 .f32) (harg1 : arg1.IsWhole)
    (arg2 : Memref sig .tc .vmem S7168x256 .f32) (harg2 : arg2.IsWhole)
    (arg3 : Memref sig .tc .vmem S7168x256 .f32) (harg3 : arg3.IsWhole)
    (arg4 : Memref sig .tc .vmem S256x512 .bf16) (harg4 : arg4.IsWhole)
    (arg5 : Memref sig .tc .vmem S1x256 .f32) (harg5 : arg5.IsWhole)
    (arg6 : Memref sig .tc .vmem S256x3 .bf16) (harg6 : arg6.IsWhole)
    (arg7 : Memref sig .tc .vmem S1x3 .f32) (harg7 : arg7.IsWhole)
    (arg8 : Memref sig .tc .vmem S7168x3 .f32) (harg8 : arg8.IsWhole)
    (K : PUnit → sProp 𝕄) :
    iprop((∃ d, owns (c : Thread nD τ) arg1 fullShare d)
        ∗ (∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (iprop((∃ d, owns (c : Thread nD τ) arg1 fullShare d)
              ∗ (∃ d, owns (c : Thread nD τ) arg2 fullShare d)
              ∗ (∃ d, owns (c : Thread nD τ) arg3 fullShare d)
              ∗ (∃ d, owns (c : Thread nD τ) arg4 fullShare d)
              ∗ (∃ d, owns (c : Thread nD τ) arg5 fullShare d)
              ∗ (∃ d, owns (c : Thread nD τ) arg6 fullShare d)
              ∗ (∃ d, owns (c : Thread nD τ) arg7 fullShare d)
              ∗ (∃ d, owns (c : Thread nD τ) arg8 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton]
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  sl_exec
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  · iexists _, _; isplitr; swap; · iexact H8
    ipureintro; rfl

/-! ## The proof data -/

/-- The proof data on core `c`: the arrays as the launch finds them; of what the body leaves in a staging buffer,
    nothing is said (the relation holds of any contents found and left); the invariant is the class's (the scoped
    buffers that are no staging buffer, the generator register: untouched); nothing owed; full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The arrays are held at full shares. -/
theorem share_eq (c : Dev nD) (w : Fin cfg0.W) : (rdats m c).share w = fullShare := by
  unfold RDat.share; split <;> rfl

/-! ## The body obligation -/

/-- What the body is called with at point `t`: the invariant, what the core owes, and each window's current staging
    buffer at the contents `Y w` it is handed, -/
def bodyPre (c : Dev nD) (t : Fin cfg0.N) (Y : (w : Fin cfg0.W) → (cfg0.win w).block.Idx → Elt F (cfg0.win w).elt) : sProp 𝕄 :=
  iprop((rdats m c).Φ t.castSucc ∗ (rdats m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7))

/-- and what it returns: the same, each buffer at some contents in the relation to what it was handed. -/
def bodyPost (c : Dev nD) (t : Fin cfg0.N) (Y : (w : Fin cfg0.W) → (cfg0.win w).block.Idx → Elt F (cfg0.win w).elt) : sProp 𝕄 :=
  iprop((rdats m c).Φ t.succ ∗ (rdats m c).owesAt () t.succ
    ∗ (∃ X, ⌜(rdats m c).after 0 t (Y 0) X⌝ ∗ owns (c : Thread nD τ) (st0_0 t) fullShare X)
    ∗ (∃ X, ⌜(rdats m c).after 1 t (Y 1) X⌝ ∗ owns (c : Thread nD τ) (st0_1 t) fullShare X)
    ∗ (∃ X, ⌜(rdats m c).after 2 t (Y 2) X⌝ ∗ owns (c : Thread nD τ) (st0_2 t) fullShare X)
    ∗ (∃ X, ⌜(rdats m c).after 3 t (Y 3) X⌝ ∗ owns (c : Thread nD τ) (st0_3 t) fullShare X)
    ∗ (∃ X, ⌜(rdats m c).after 4 t (Y 4) X⌝ ∗ owns (c : Thread nD τ) (st0_4 t) fullShare X)
    ∗ (∃ X, ⌜(rdats m c).after 5 t (Y 5) X⌝ ∗ owns (c : Thread nD τ) (st0_5 t) fullShare X)
    ∗ (∃ X, ⌜(rdats m c).after 6 t (Y 6) X⌝ ∗ owns (c : Thread nD τ) (st0_6 t) fullShare X)
    ∗ (∃ X, ⌜(rdats m c).after 7 t (Y 7) X⌝ ∗ owns (c : Thread nD τ) (st0_7 t) fullShare X))

/-- The body at any point: whatever the buffers hold, `sound_kernel` applies; the invariant and what the core owes
    pass through unread, and every buffer comes back at some contents, which is all the relation asks. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdats m c).Φ t.succ = (rdats m c).Φ t.castSucc from rfl,
    show (rdats m c).owesAt () t.succ = (rdats m c).owesAt () t.castSucc from rfl]
  iintro ⟨HΦ, Ho, H0, H1, H2, H3, H4, H5, H6, H7⟩
  iapply (sound_kernel c Set.univ _ _ _ _ _ _ _ _ _ _ _ _ _ _ _ _ _ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iintro ⟨⟨%X0, H0⟩, ⟨%X1, H1⟩, ⟨%X2, H2⟩, ⟨%X3, H3⟩, ⟨%X4, H4⟩, ⟨%X5, H5⟩, ⟨%X6, H6⟩, ⟨%X7, H7⟩⟩
  isplitl [HΦ]; · iexact HΦ
  isplitl [Ho]; · iexact Ho
  isplitl [H0]
  · iexists X0; isplitr; · ipureintro; trivial
    iexact H0
  isplitl [H1]
  · iexists X1; isplitr; · ipureintro; trivial
    iexact H1
  isplitl [H2]
  · iexists X2; isplitr; · ipureintro; trivial
    iexact H2
  isplitl [H3]
  · iexists X3; isplitr; · ipureintro; trivial
    iexact H3
  isplitl [H4]
  · iexists X4; isplitr; · ipureintro; trivial
    iexact H4
  isplitl [H5]
  · iexists X5; isplitr; · ipureintro; trivial
    iexact H5
  isplitl [H6]
  · iexists X6; isplitr; · ipureintro; trivial
    iexact H6
  · iexists X7; isplitr; · ipureintro; trivial
    iexact H7

/-- The library's body obligation, at every point: nothing of what the buffers may hold is used. -/
theorem body_obligation (c : Dev nD) : (rdats m c).BodyObligation (defs₀ (F := F)) Variants.none () Set.univ := fun t Y _ => by
  rw [bigSep_W0, bigSep_W0]
  exact sound_body m c t Y

/-! ## The run and the frame -/

set_option backward.isDefEq.respectTransparency.types false in
/-- At the compiled mesh, for any values, from any memory with zero counters: every weakly fair execution of @main on
    the TensorCores terminates, and every final state has each input array of the launch as the launch found it and
    every unscoped buffer that is no array of the launch likewise. -/
theorem run_main : θ_run defs (onTc (τ := τ) (main (F := F))) (s₀ m ρ) (RDat.FramePost cfg0 (rdats m) (V m)) :=
  Pipeline.RDat.θ_run_frame cfgs (0 : Fin 1) launch0 defs₀ Variants.none (rdats m) m ρ main
    (hbody := body_obligation m) (hshare := share_eq m) (howed := fun _ _ => rfl)
    (V := V m) (hmain := hmain m Variants.none) (hA := fun _ _ => rfl) (hΦ := fun _ _ => rfl)

/-- info: 'Cert.Kernel.Hand.run_main' depends on axioms: [propext, Classical.choice, Quot.sound] -/
#guard_msgs in #print axioms run_main

/-- The frame claim: arguments 0, 1 and 2 are the arrays of the launch's input windows 0, 1 and 2, which nothing
    writes, so each ends at its contents at the launch's entry; arguments 3 to 8 bypass the launch, so each ends
    as the launch found it; and no operation before the launch writes an argument. -/
theorem frame : Cert.frame_Kernel := by
  intro m ρ _
  refine (θ_run defs _ _).mono (fun r h c => ?_) (run_main (F := Bits) m ρ)
  have h0 := RDat.FramePost.arr_in h c (0 : Fin 8) rfl
  have h1 := RDat.FramePost.arr_in h c (1 : Fin 8) rfl
  have h2 := RDat.FramePost.arr_in h c (2 : Fin 8) rfl
  have hr := (h c).2
  exact ⟨h0.trans (V_main_arg0 m c), h1.trans (V_main_arg1 m c), h2.trans (V_main_arg2 m c),
    (hr main_arg3 (by decide)).trans (V_main_arg3 m c), (hr main_arg4 (by decide)).trans (V_main_arg4 m c),
    (hr main_arg5 (by decide)).trans (V_main_arg5 m c), (hr main_arg6 (by decide)).trans (V_main_arg6 m c),
    (hr main_arg7 (by decide)).trans (V_main_arg7 m c), (hr main_arg8 (by decide)).trans (V_main_arg8 m c)⟩

/-- info: 'Cert.Kernel.Hand.frame' depends on axioms: [propext, Classical.choice, Quot.sound] -/
#guard_msgs in #print axioms frame

end Cert.Kernel.Hand

end
-- ==== Proof.KIdealPrefix.lean ====
/-
  What the launch finds. Ten operations run before it: four slices of the two first-layer weight matrices, their
  join side by side into one matrix of 512 columns, its change of format, the join of the two first-layer biases
  and its reshape to one row, the change of format of the output weights, and the reshape of the output bias to
  one row. None of them writes an argument, so every argument array enters the launch as it was.
-/
import proofs.«122431_g32006096290012_cont_8to1_b_1154_27_alg».proof.Proof.Gen.KernelIdeal.Launch
import proofs.«122431_g32006096290012_cont_8to1_b_1154_27_alg».proof.Proof.Gen.KernelIdeal.Points
import Idealize.ShloMosaic.Lib.Pipeline.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- Core `c`'s buffers when the launch is entered: the launch memory after the ten operations. -/
abbrev V (c : Dev nD) (b : Ref sig .tc) : Buf (Elt F) ((c : Thread nD τ).loc b) :=
  StableHlo.after hostOps0 (fun b => m (c, b)) b

/-- None of the ten operations allocates. -/
theorem hostOps0_fresh : (hostOps0 : List (HloOp τ sig (Elt F))).Forall fun op => op.fresh = ∅ := by
  simp only [List.Forall]; repeat' constructor

/-- The program is the ten operations, then the launch. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No operation before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- No operation before the launch writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

end Cert.KernelIdeal.Hand

end
-- ==== Proof.KIdealBody.lean ====
/-
  One grid point of the kernel, on whatever staging buffers it is called with. The body reads a block of each of
  the three inputs, three column ranges of the packed first-layer weights, the two halves of the packed bias, the
  two halves of the output weights and the output bias; it forms the two rectified hidden blocks and stores, in
  one whole store, the output block. It leaves every buffer it reads as it found it.
-/
import proofs.«122431_g32006096290012_cont_8to1_b_1154_27_alg».proof.Proof.KIdealPrefix
import proofs.«122431_g32006096290012_cont_8to1_b_1154_27_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes -/

/-- A whole input block. -/
abbrev rIn : Rect S7168x256 := Rect.unit (s := S7168x256) ![0, 0] S7168x256.size inb_S7168x256_S7168x256_0_0
/-- The packed weights' columns 256 to 511: what multiplies `current`, for both branches. -/
abbrev rWc : Rect S256x512 := Rect.unit (s := S256x512) ![0, 256] S256x256.size inb_S256x512_S256x256_0_256
/-- Their columns 0 to 127: what multiplies `neighbor`. -/
abbrev rWn : Rect S256x512 := Rect.unit (s := S256x512) ![0, 0] S256x128.size inb_S256x512_S256x128_0_0
/-- Their columns 128 to 255: what multiplies `remote`. -/
abbrev rWr : Rect S256x512 := Rect.unit (s := S256x512) ![0, 128] S256x128.size inb_S256x512_S256x128_0_128
/-- The two halves of the packed bias row. -/
abbrev rBn : Rect S1x256 := Rect.unit (s := S1x256) ![0, 0] S1x128.size inb_S1x256_S1x128_0_0
abbrev rBr : Rect S1x256 := Rect.unit (s := S1x256) ![0, 128] S1x128.size inb_S1x256_S1x128_0_128
/-- The upper and the lower 128 rows of the output weights. -/
abbrev rDn : Rect S256x3 := Rect.unit (s := S256x3) ![0, 0] S128x3.size inb_S256x3_S128x3_0_0
abbrev rDr : Rect S256x3 := Rect.unit (s := S256x3) ![128, 0] S128x3.size inb_S256x3_S128x3_128_0
/-- The output bias row, and the whole output block. -/
abbrev rBd : Rect S1x3 := Rect.unit (s := S1x3) ![0, 0] S1x3.size inb_S1x3_S1x3_0_0
abbrev rOut : Rect S7168x3 := Rect.unit (s := S7168x3) ![0, 0] S7168x3.size inb_S7168x3_S7168x3_0_0

/-- What the one store writes, from what the seven input buffers hold: the block of `neighbor` `xn`, of `current`
    `xc`, of `remote` `xr`, the packed weights `w`, the packed bias `b`, the output weights `wd` and bias `bd`. -/
def stored (xn xc xr : Vec F S7168x256 .f32) (w : Vec F S256x512 .bf16) (b : Vec F S1x256 .f32)
    (wd : Vec F S256x3 .bf16) (bd : Vec F S1x3 .f32) : Vec F S7168x3 .f32 :=
  k0_pay1 (k0_pay3 (View.ld xc rIn) (View.ld w rWc) (View.ld xr rIn) (View.ld w rWr) (View.ld b rBr))
    (k0_pay4 (View.ld xc rIn) (View.ld w rWc) (View.ld xn rIn) (View.ld w rWn) (View.ld b rBn) (View.ld wd rDn))
    (View.ld wd rDr) (View.ld bd rBd)

/-- The output buffer after the body: its one store, which covers it. -/
def out7 (xn xc xr : Vec F S7168x256 .f32) (w : Vec F S256x512 .bf16) (b : Vec F S1x256 .f32)
    (wd : Vec F S256x3 .bf16) (bd : Vec F S1x3 .f32) : Vec F S7168x3 .f32 :=
  View.canon [⟨rOut, stored xn xc xr w b wd bd⟩]

theorem cover7 (p0 : Vec F S7168x3 .f32) (y : S7168x3.Idx) :
    ∃ pc ∈ ([⟨rOut, p0⟩] : List (View.Piece (Elt F) S7168x3 .f32)), y ∈ pc.1.set :=
  View.cover_of_tiled [⟨rOut, p0⟩] S7168x3.size (by rfl) y

set_option maxHeartbeats 4000000 in
/-- The body on whole staging memrefs, the seven inputs' at contents `x…` and the output's at anything: it runs
    to the end, the inputs' buffers as they were and the output's at `out7` of them. -/
theorem sound_kernel (c : Dev nD) (E : Set ℕ) (i : grid0.Coords)
    (arg1 : Memref sig .tc .vmem S7168x256 .f32) (harg1 : arg1.IsWhole) (arg2 : Memref sig .tc .vmem S7168x256 .f32) (harg2 : arg2.IsWhole)
    (arg3 : Memref sig .tc .vmem S7168x256 .f32) (harg3 : arg3.IsWhole) (arg4 : Memref sig .tc .vmem S256x512 .bf16) (harg4 : arg4.IsWhole)
    (arg5 : Memref sig .tc .vmem S1x256 .f32) (harg5 : arg5.IsWhole) (arg6 : Memref sig .tc .vmem S256x3 .bf16) (harg6 : arg6.IsWhole)
    (arg7 : Memref sig .tc .vmem S1x3 .f32) (harg7 : arg7.IsWhole) (arg8 : Memref sig .tc .vmem S7168x3 .f32) (harg8 : arg8.IsWhole)
    (xn xc xr : Vec F S7168x256 .f32) (w : Vec F S256x512 .bf16) (b : Vec F S1x256 .f32) (wd : Vec F S256x3 .bf16) (bd : Vec F S1x3 .f32)
    (K : PUnit → sProp 𝕄) :
    iprop(owns (c : Thread nD τ) arg1 fullShare xn ∗ owns (c : Thread nD τ) arg2 fullShare xc ∗ owns (c : Thread nD τ) arg3 fullShare xr
        ∗ owns (c : Thread nD τ) arg4 fullShare w ∗ owns (c : Thread nD τ) arg5 fullShare b ∗ owns (c : Thread nD τ) arg6 fullShare wd
        ∗ owns (c : Thread nD τ) arg7 fullShare bd ∗ (∃ d, owns (c : Thread nD τ) arg8 fullShare d)
        ∗ (iprop(owns (c : Thread nD τ) arg1 fullShare xn ∗ owns (c : Thread nD τ) arg2 fullShare xc ∗ owns (c : Thread nD τ) arg3 fullShare xr
            ∗ owns (c : Thread nD τ) arg4 fullShare w ∗ owns (c : Thread nD τ) arg5 fullShare b ∗ owns (c : Thread nD τ) arg6 fullShare wd
            ∗ owns (c : Thread nD τ) arg7 fullShare bd ∗ owns (c : Thread nD τ) arg8 fullShare (out7 xn xc xr w b wd bd)) -∗ K ⟨⟩))
      ⊢ wp frame (wpE (defs₀ (F := F)) Variants.none c none) E
          (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover7 _)

end Cert.KernelIdeal.Hand

end
-- ==== Proof.Spec.lean ====
/-
  What both programs compute, row by row. A row of the result depends on the same row of the three inputs only:
  two hidden rows, each the rectified affine image of an input row beside the row of `current`, and an affine
  output over the two hidden rows laid side by side. A product against a matrix whose rows are split into an upper
  and a lower half is the sum of the two half products: a sum over a joined axis is the sum over its two parts.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- The zero the rectifier compares with. -/
abbrev z0 : EReal := FloatOps.ofBits (F := Ideal) .f32 0x00000000#32

/-- One hidden unit: the upper 256 weights against a row `x`, the lower 256 against the row `c`, a bias,
    rectified. -/
def hid (x c : Fin 256 → EReal) (W : Fin 512 → EReal) (b : EReal) : EReal :=
  FloatOps.maximumf (F := Ideal) (φ := .f32)
    (((∑ k : Fin 256, x k * W (Fin.castAdd 256 k)) + (∑ k : Fin 256, c k * W (Fin.natAdd 256 k))) + b) z0

/-- One entry of a result row: the first 128 output weights against the hidden row of `n`, the last 128 against
    the hidden row of `r`, a bias. -/
def outRow (n c r : Fin 256 → EReal) (Wn Wr : Fin 512 → Fin 128 → EReal) (bn br : Fin 128 → EReal)
    (Wd : Fin 256 → EReal) (bd : EReal) : EReal :=
  ((∑ j : Fin 128, hid n c (fun k => Wn k j) (bn j) * Wd (Fin.castAdd 128 j))
    + (∑ j : Fin 128, hid r c (fun k => Wr k j) (br j) * Wd (Fin.natAdd 128 j))) + bd

/-- The whole result, index by index, over the nine argument arrays. -/
def G (n c r : (⟨2, ![100000, 256]⟩ : Shape).Idx → EReal) (Wn : (⟨2, ![512, 128]⟩ : Shape).Idx → EReal)
    (bn : (⟨1, ![128]⟩ : Shape).Idx → EReal) (Wr : (⟨2, ![512, 128]⟩ : Shape).Idx → EReal)
    (br : (⟨1, ![128]⟩ : Shape).Idx → EReal) (Wd : (⟨2, ![256, 3]⟩ : Shape).Idx → EReal)
    (bd : (⟨1, ![3]⟩ : Shape).Idx → EReal) : (⟨2, ![100000, 3]⟩ : Shape).Idx → EReal := fun i =>
  outRow (fun k => n (ix2 (i 0) k)) (fun k => c (ix2 (i 0) k)) (fun k => r (ix2 (i 0) k))
    (fun k j => Wn (ix2 k j)) (fun k j => Wr (ix2 k j)) (fun j => bn (ix1 j)) (fun j => br (ix1 j))
    (fun k => Wd (ix2 k (i 1))) (bd (ix1 (i 1)))

/-- A sum over an axis of `a + b` entries is the sum over its first `a` and its last `b`. -/
theorem sum_join {M : Type} [AddCommMonoid M] (a b : Nat) (f : Fin (a + b) → M) :
    ∑ k : Fin (a + b), f k = (∑ k : Fin a, f (Fin.castAdd b k)) + ∑ k : Fin b, f (Fin.natAdd a k) :=
  Fin.sum_univ_add f

end Cert.Spec

end
-- ==== Proof.PayRow.lean ====
/-
  One entry of the block the kernel stores, as a function of one row of its inputs. The stored block is
  (hidden₁ · W_upper + hidden₂ · W_lower) + bias, where each hidden block is the rectified sum of an input block
  against its own 128 weight columns, 128 columns of the product of `current` with the packed right-hand weights,
  and a bias row. Read at (p, q), every product is a sum over one row: a product into a zero accumulator is the
  sum over the contracted axis of the products of the entries; narrowing the float format and casting to the same
  shape are the identity on extended reals; a column slice shifts the column; a one-row broadcast reads that row.
  So entry (p, q) is `Spec.outRow` of row p of `neighbor`, `current` and `remote`, with the first-layer weights of
  each branch laid out as its own 256 rows above the 256 rows of its half of the packed columns.
-/
import proofs.«122431_g32006096290012_cont_8to1_b_1154_27_alg».proof.Proof.Gen.KernelIdeal.Skeleton
import proofs.«122431_g32006096290012_cont_8to1_b_1154_27_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayRow

open Cert.KernelIdeal Cert.KernelIdeal.Gen Idealize.ShloMosaic Idealize.ShloMosaic.ValueIdx

/-! ## A product of a 7168×256 block with a 256×256 matrix, read at an entry -/

theorem lhsA_0 (i : S7168x256.Idx) (q : dot_S7168x256_S256x256_S7168x256_1_0_0_1_n_n.contr.Idx) :
    (dot_S7168x256_S256x256_S7168x256_1_0_0_1_n_n.lhsIdx i q 0).val = (i 0).val := by
  unfold DotDims.lhsIdx
  rw [dif_neg (show ¬(0 : Fin S7168x256.rank) ∈ dot_S7168x256_S256x256_S7168x256_1_0_0_1_n_n.lhsBatch by decide), dif_pos (show (0 : Fin S7168x256.rank) ∈ dot_S7168x256_S256x256_S7168x256_1_0_0_1_n_n.lhsNonContracting by decide)]
  rfl
theorem lhsA_1 (i : S7168x256.Idx) (q : dot_S7168x256_S256x256_S7168x256_1_0_0_1_n_n.contr.Idx) :
    (dot_S7168x256_S256x256_S7168x256_1_0_0_1_n_n.lhsIdx i q 1).val = (q ⟨0, by decide⟩).val :=
  dot_S7168x256_S256x256_S7168x256_1_0_0_1_n_n.lhsIdx_val_of_single rfl i q
theorem rhsA_0 (i : S7168x256.Idx) (q : dot_S7168x256_S256x256_S7168x256_1_0_0_1_n_n.contr.Idx) :
    (dot_S7168x256_S256x256_S7168x256_1_0_0_1_n_n.rhsIdx i q 0).val = (q ⟨0, by decide⟩).val :=
  dot_S7168x256_S256x256_S7168x256_1_0_0_1_n_n.rhsIdx_val_of_single rfl i q
theorem rhsA_1 (i : S7168x256.Idx) (q : dot_S7168x256_S256x256_S7168x256_1_0_0_1_n_n.contr.Idx) :
    (dot_S7168x256_S256x256_S7168x256_1_0_0_1_n_n.rhsIdx i q 1).val = (i 1).val := by
  unfold DotDims.rhsIdx
  rw [dif_neg (show ¬(1 : Fin S256x256.rank) ∈ dot_S7168x256_S256x256_S7168x256_1_0_0_1_n_n.rhsBatch by decide), dif_pos (show (1 : Fin S256x256.rank) ∈ dot_S7168x256_S256x256_S7168x256_1_0_0_1_n_n.rhsNonContracting by decide)]
  rfl

theorem mmA_apply (x : FVec Ideal S7168x256 .bf16) (w : FVec Ideal S256x256 .bf16) (p : Fin 7168) (c : Fin 256) :
    matmul (F := Ideal) dot_S7168x256_S256x256_S7168x256_1_0_0_1_n_n none x w (constant (F := Ideal) S7168x256 .f32 0x00000000#32) (ix2 p c)
      = ∑ k : Fin 256, x (ix2 p k) * w (ix2 k c) := by
  simp only [matmul]
  rw [Ideal.matmul_constant_zero_apply, ← Equiv.sum_comp (contrEquiv1 dot_S7168x256_S256x256_S7168x256_1_0_0_1_n_n 256 rfl rfl).symm]
  refine Finset.sum_congr rfl fun k _ => ?_
  have hk := contrEquiv1_symm_val dot_S7168x256_S256x256_S7168x256_1_0_0_1_n_n 256 rfl rfl k
  have el : dot_S7168x256_S256x256_S7168x256_1_0_0_1_n_n.lhsIdx (ix2 p c) ((contrEquiv1 dot_S7168x256_S256x256_S7168x256_1_0_0_1_n_n 256 rfl rfl).symm k) = ix2 p k := funext fun a => Fin.ext (by
    match a with
    | ⟨0, _⟩ => exact lhsA_0 _ _
    | ⟨1, _⟩ => exact (lhsA_1 _ _).trans hk)
  have er : dot_S7168x256_S256x256_S7168x256_1_0_0_1_n_n.rhsIdx (ix2 p c) ((contrEquiv1 dot_S7168x256_S256x256_S7168x256_1_0_0_1_n_n 256 rfl rfl).symm k) = ix2 k c := funext fun a => Fin.ext (by
    match a with
    | ⟨0, _⟩ => exact (rhsA_0 _ _).trans hk
    | ⟨1, _⟩ => exact rhsA_1 _ _)
  rw [el, er]

/-! ## A product of a 7168×256 block with a 256×128 matrix, read at an entry -/

theorem lhsB_0 (i : S7168x128.Idx) (q : dot_S7168x256_S256x128_S7168x128_1_0_0_1_n_n.contr.Idx) :
    (dot_S7168x256_S256x128_S7168x128_1_0_0_1_n_n.lhsIdx i q 0).val = (i 0).val := by
  unfold DotDims.lhsIdx
  rw [dif_neg (show ¬(0 : Fin S7168x256.rank) ∈ dot_S7168x256_S256x128_S7168x128_1_0_0_1_n_n.lhsBatch by decide), dif_pos (show (0 : Fin S7168x256.rank) ∈ dot_S7168x256_S256x128_S7168x128_1_0_0_1_n_n.lhsNonContracting by decide)]
  rfl
theorem lhsB_1 (i : S7168x128.Idx) (q : dot_S7168x256_S256x128_S7168x128_1_0_0_1_n_n.contr.Idx) :
    (dot_S7168x256_S256x128_S7168x128_1_0_0_1_n_n.lhsIdx i q 1).val = (q ⟨0, by decide⟩).val :=
  dot_S7168x256_S256x128_S7168x128_1_0_0_1_n_n.lhsIdx_val_of_single rfl i q
theorem rhsB_0 (i : S7168x128.Idx) (q : dot_S7168x256_S256x128_S7168x128_1_0_0_1_n_n.contr.Idx) :
    (dot_S7168x256_S256x128_S7168x128_1_0_0_1_n_n.rhsIdx i q 0).val = (q ⟨0, by decide⟩).val :=
  dot_S7168x256_S256x128_S7168x128_1_0_0_1_n_n.rhsIdx_val_of_single rfl i q
theorem rhsB_1 (i : S7168x128.Idx) (q : dot_S7168x256_S256x128_S7168x128_1_0_0_1_n_n.contr.Idx) :
    (dot_S7168x256_S256x128_S7168x128_1_0_0_1_n_n.rhsIdx i q 1).val = (i 1).val := by
  unfold DotDims.rhsIdx
  rw [dif_neg (show ¬(1 : Fin S256x128.rank) ∈ dot_S7168x256_S256x128_S7168x128_1_0_0_1_n_n.rhsBatch by decide), dif_pos (show (1 : Fin S256x128.rank) ∈ dot_S7168x256_S256x128_S7168x128_1_0_0_1_n_n.rhsNonContracting by decide)]
  rfl

theorem mmB_apply (x : FVec Ideal S7168x256 .bf16) (w : FVec Ideal S256x128 .bf16) (p : Fin 7168) (c : Fin 128) :
    matmul (F := Ideal) dot_S7168x256_S256x128_S7168x128_1_0_0_1_n_n none x w (constant (F := Ideal) S7168x128 .f32 0x00000000#32) (ix2 p c)
      = ∑ k : Fin 256, x (ix2 p k) * w (ix2 k c) := by
  simp only [matmul]
  rw [Ideal.matmul_constant_zero_apply, ← Equiv.sum_comp (contrEquiv1 dot_S7168x256_S256x128_S7168x128_1_0_0_1_n_n 256 rfl rfl).symm]
  refine Finset.sum_congr rfl fun k _ => ?_
  have hk := contrEquiv1_symm_val dot_S7168x256_S256x128_S7168x128_1_0_0_1_n_n 256 rfl rfl k
  have el : dot_S7168x256_S256x128_S7168x128_1_0_0_1_n_n.lhsIdx (ix2 p c) ((contrEquiv1 dot_S7168x256_S256x128_S7168x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S7168x256_S256x128_S7168x128_1_0_0_1_n_n.rhsIdx (ix2 p c) ((contrEquiv1 dot_S7168x256_S256x128_S7168x128_1_0_0_1_n_n 256 rfl rfl).symm k) = ix2 k c := funext fun a => Fin.ext (by
    match a with
    | ⟨0, _⟩ => exact (rhsB_0 _ _).trans hk
    | ⟨1, _⟩ => exact rhsB_1 _ _)
  rw [el, er]

/-! ## A product of a 7168×128 block with a 128×3 matrix, read at an entry -/

theorem lhsC_0 (i : S7168x3.Idx) (q : dot_S7168x128_S128x3_S7168x3_1_0_0_1_n_n.contr.Idx) :
    (dot_S7168x128_S128x3_S7168x3_1_0_0_1_n_n.lhsIdx i q 0).val = (i 0).val := by
  unfold DotDims.lhsIdx
  rw [dif_neg (show ¬(0 : Fin S7168x128.rank) ∈ dot_S7168x128_S128x3_S7168x3_1_0_0_1_n_n.lhsBatch by decide), dif_pos (show (0 : Fin S7168x128.rank) ∈ dot_S7168x128_S128x3_S7168x3_1_0_0_1_n_n.lhsNonContracting by decide)]
  rfl
theorem lhsC_1 (i : S7168x3.Idx) (q : dot_S7168x128_S128x3_S7168x3_1_0_0_1_n_n.contr.Idx) :
    (dot_S7168x128_S128x3_S7168x3_1_0_0_1_n_n.lhsIdx i q 1).val = (q ⟨0, by decide⟩).val :=
  dot_S7168x128_S128x3_S7168x3_1_0_0_1_n_n.lhsIdx_val_of_single rfl i q
theorem rhsC_0 (i : S7168x3.Idx) (q : dot_S7168x128_S128x3_S7168x3_1_0_0_1_n_n.contr.Idx) :
    (dot_S7168x128_S128x3_S7168x3_1_0_0_1_n_n.rhsIdx i q 0).val = (q ⟨0, by decide⟩).val :=
  dot_S7168x128_S128x3_S7168x3_1_0_0_1_n_n.rhsIdx_val_of_single rfl i q
theorem rhsC_1 (i : S7168x3.Idx) (q : dot_S7168x128_S128x3_S7168x3_1_0_0_1_n_n.contr.Idx) :
    (dot_S7168x128_S128x3_S7168x3_1_0_0_1_n_n.rhsIdx i q 1).val = (i 1).val := by
  unfold DotDims.rhsIdx
  rw [dif_neg (show ¬(1 : Fin S128x3.rank) ∈ dot_S7168x128_S128x3_S7168x3_1_0_0_1_n_n.rhsBatch by decide), dif_pos (show (1 : Fin S128x3.rank) ∈ dot_S7168x128_S128x3_S7168x3_1_0_0_1_n_n.rhsNonContracting by decide)]
  rfl

theorem mmC_apply (x : FVec Ideal S7168x128 .bf16) (w : FVec Ideal S128x3 .bf16) (p : Fin 7168) (c : Fin 3) :
    matmul (F := Ideal) dot_S7168x128_S128x3_S7168x3_1_0_0_1_n_n none x w (constant (F := Ideal) S7168x3 .f32 0x00000000#32) (ix2 p c)
      = ∑ k : Fin 128, x (ix2 p k) * w (ix2 k c) := by
  simp only [matmul]
  rw [Ideal.matmul_constant_zero_apply, ← Equiv.sum_comp (contrEquiv1 dot_S7168x128_S128x3_S7168x3_1_0_0_1_n_n 128 rfl rfl).symm]
  refine Finset.sum_congr rfl fun k _ => ?_
  have hk := contrEquiv1_symm_val dot_S7168x128_S128x3_S7168x3_1_0_0_1_n_n 128 rfl rfl k
  have el : dot_S7168x128_S128x3_S7168x3_1_0_0_1_n_n.lhsIdx (ix2 p c) ((contrEquiv1 dot_S7168x128_S128x3_S7168x3_1_0_0_1_n_n 128 rfl rfl).symm k) = ix2 p k := funext fun a => Fin.ext (by
    match a with
    | ⟨0, _⟩ => exact lhsC_0 _ _
    | ⟨1, _⟩ => exact (lhsC_1 _ _).trans hk)
  have er : dot_S7168x128_S128x3_S7168x3_1_0_0_1_n_n.rhsIdx (ix2 p c) ((contrEquiv1 dot_S7168x128_S128x3_S7168x3_1_0_0_1_n_n 128 rfl rfl).symm k) = ix2 k c := funext fun a => Fin.ext (by
    match a with
    | ⟨0, _⟩ => exact (rhsC_0 _ _).trans hk
    | ⟨1, _⟩ => exact rhsC_1 _ _)
  rw [el, er]

/-! ## The packed product of `current`, read at an entry -/

/-- The product of the block of `current` with the 256 right-hand weight columns, at row `p` and column `c`:
    the sum over the row of `current`. Narrowing the format and casting to the same shape change nothing. -/
theorem pay2_apply (v0 : FVec Ideal S7168x256 .f32) (v2 : FVec Ideal S256x256 .bf16) (p : Fin 7168) (c : Fin 256) :
    k0_pay2 (F := Ideal) v0 v2 (ix2 p c) = ∑ k : Fin 256, v0 (ix2 p k) * v2 (ix2 k c) := by
  unfold k0_pay2
  refine (mmA_apply _ _ p c).trans ?_
  rw [shapeCast_self]
  rfl

/-! ## One hidden row -/

/-- The hidden block of one branch before it meets the output weights: the input block against its own 128 weight
    columns, plus 128 columns (from column `o` on) of the packed product of `current`, plus the bias row, rectified. -/
def hidBlock (x c : FVec Ideal S7168x256 .f32) (w2 : FVec Ideal S256x256 .bf16) (w : FVec Ideal S256x128 .bf16)
    (b : FVec Ideal S1x128 .f32) (o : Nat) (h : S7168x256.Slices ![0, o] S7168x128) : FVec Ideal S7168x128 .f32 :=
  maximumf
    (addf
      (addf
        (matmul (F := Ideal) dot_S7168x256_S256x128_S7168x128_1_0_0_1_n_n none (truncf .bf16 x bitsLt_bf16_f32)
          (shapeCast S256x128 w shapeCasts_S256x128_S256x128) (constant (F := Ideal) S7168x128 .f32 0x00000000#32))
        (extractStridedSlice S7168x128 ![0, o] (k0_pay2 (F := Ideal) c w2) h))
      (broadcastTo S7168x128 (shapeCast S1x128 b shapeCasts_S1x128_S1x128) broadcasts_S1x128_S7168x128))
    (broadcast S7168x128 (Scalar.ofBits (F := Ideal) .f32 0x00000000#32))

/-- Entry `(p, j)` of a hidden block is the hidden unit of row `p`: the weights are the branch's own column `j`
    above column `o + j` of the packed weights. -/
theorem hidBlock_apply (x c : FVec Ideal S7168x256 .f32) (w2 : FVec Ideal S256x256 .bf16) (w : FVec Ideal S256x128 .bf16)
    (b : FVec Ideal S1x128 .f32) (o : Nat) (h : S7168x256.Slices ![0, o] S7168x128) (p : Fin 7168) (j : Fin 128)
    (jo : Fin 256) (hjo : jo.val = o + j.val) :
    hidBlock x c w2 w b o h (ix2 p j)
      = Cert.Spec.hid (fun k => x (ix2 p k)) (fun k => c (ix2 p k))
          (fun k => Fin.addCases (fun k' : Fin 256 => w (ix2 k' j)) (fun k' : Fin 256 => w2 (ix2 k' jo)) k)
          (b (ix2 0 j)) := by
  unfold hidBlock Cert.Spec.hid
  rw [maximumf_apply, addf_apply, addf_apply, broadcast_apply]
  rw [mmB_apply, slice2_axis1_apply o _ h p j jo hjo, pay2_apply, broadcastTo_1b_ab_apply, shapeCast_self, shapeCast_self]
  simp only [Fin.addCases_left, Fin.addCases_right]
  rfl

/-- The second branch's hidden block is the payload the kernel names for it. -/
theorem pay3_eq (v0 : FVec Ideal S7168x256 .f32) (v2 : FVec Ideal S256x256 .bf16) (v18 : FVec Ideal S7168x256 .f32)
    (v20 : FVec Ideal S256x128 .bf16) (v25 : FVec Ideal S1x128 .f32) :
    k0_pay3 (F := Ideal) v0 v2 v18 v20 v25 = hidBlock v18 v0 v2 v20 v25 128 slices_S7168x256_o0_128_S7168x128 := rfl

/-- The first branch's contribution to the output is its hidden block against the upper output weights. -/
theorem pay4_eq (v0 : FVec Ideal S7168x256 .f32) (v2 : FVec Ideal S256x256 .bf16) (v5 : FVec Ideal S7168x256 .f32)
    (v7 : FVec Ideal S256x128 .bf16) (v12 : FVec Ideal S1x128 .f32) (v32 : FVec Ideal S128x3 .bf16) :
    k0_pay4 (F := Ideal) v0 v2 v5 v7 v12 v32
      = matmul (F := Ideal) dot_S7168x128_S128x3_S7168x3_1_0_0_1_n_n none
          (truncf .bf16 (hidBlock v5 v0 v2 v7 v12 0 slices_S7168x256_o0_0_S7168x128) bitsLt_bf16_f32)
          (shapeCast S128x3 v32 shapeCasts_S128x3_S128x3) (constant (F := Ideal) S7168x3 .f32 0x00000000#32) := rfl

/-! ## One entry of the stored block -/

/-- Entry `(p, q)` of the value the kernel stores is the result row of ROW `p` of the three input blocks: no other
    row enters. -/
theorem pay_row (v0 v5 v18 : Vec Ideal S7168x256 .f32) (v2 : Vec Ideal S256x256 .bf16) (v7 v20 : Vec Ideal S256x128 .bf16)
    (v12 v25 : Vec Ideal S1x128 .f32) (v32 v36 : Vec Ideal S128x3 .bf16) (v40 : Vec Ideal S1x3 .f32) (p : Fin 7168) (q : Fin 3) :
    k0_pay1 (F := Ideal) (k0_pay3 (F := Ideal) v0 v2 v18 v20 v25) (k0_pay4 (F := Ideal) v0 v2 v5 v7 v12 v32) v36 v40 (ix2 p q)
      = Cert.Spec.outRow (fun k => v5 (ix2 p k)) (fun k => v0 (ix2 p k)) (fun k => v18 (ix2 p k))
          (fun k j => Fin.addCases (fun k' : Fin 256 => v7 (ix2 k' j)) (fun k' : Fin 256 => v2 (ix2 k' (Fin.castAdd 128 j))) k)
          (fun k j => Fin.addCases (fun k' : Fin 256 => v20 (ix2 k' j)) (fun k' : Fin 256 => v2 (ix2 k' (Fin.natAdd 128 j))) k)
          (fun j => v12 (ix2 0 j)) (fun j => v25 (ix2 0 j))
          (fun k => Fin.addCases (fun k' : Fin 128 => v32 (ix2 k' q)) (fun k' : Fin 128 => v36 (ix2 k' q)) k)
          (v40 (ix2 0 q)) := by
  rw [pay3_eq, pay4_eq]
  unfold k0_pay1 Cert.Spec.outRow
  rw [addf_apply, addf_apply, mmC_apply, mmC_apply, broadcastTo_1b_ab_apply, shapeCast_self, shapeCast_self, shapeCast_self]
  simp only [Fin.addCases_left, Fin.addCases_right, truncf_apply]
  congr 2
  · refine Finset.sum_congr rfl fun j _ => ?_
    rw [hidBlock_apply v5 v0 v2 v7 v12 0 _ p j (Fin.castAdd 128 j) ((Fin.coe_castAdd 128 j).trans (Nat.zero_add _).symm)]
  · refine Finset.sum_congr rfl fun j _ => ?_
    rw [hidBlock_apply v18 v0 v2 v20 v25 128 _ p j (Fin.natAdd 128 j) (Fin.coe_natAdd 128 j)]

end Cert.KernelIdeal.PayRow

end
-- ==== Proof.KIdealRun.lean ====
/-
  The idealized kernel's run. The launch visits fourteen row blocks of 7168 rows; the last one overhangs the
  arrays' 100000 rows, so its transfers are cut at the arrays' end and the staging rows past it hold whatever
  was there. Every result row is a function of the same row of the three inputs, so those rows never reach a row
  that is written back: on the rows inside the arrays the output block is the same whatever the tail holds.
-/
import proofs.«122431_g32006096290012_cont_8to1_b_1154_27_alg».proof.Proof.KIdealBody
import proofs.«122431_g32006096290012_cont_8to1_b_1154_27_alg».proof.Proof.PayRow
import Idealize.ShloMosaic.Lib.Pipeline.Frame
import Idealize.ShloMosaic.Lib.ValueIdx
import Idealize.ShloMosaic.Lib.Pipeline.Kit
import Idealize.ShloMosaic.Adequacy
import Idealize.ShloMosaic.Init

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The blocks -/

/-- Window `w`'s block at point `t`, its part inside the array, read off the array as the launch finds it. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-- An input block filled out to the staging buffer's 7168 rows with a word nothing reads. -/
def nblk8 (c : Dev nD) (t : Fin cfg0.N) : S7168x256.Idx → Elt Ideal .f32 :=
  win0_0.fill (grid0.coords t) (fun _ => Scalar.ofBits (F := Ideal) .f32 0#32) (iblk m c 0 t)
def cblk8 (c : Dev nD) (t : Fin cfg0.N) : S7168x256.Idx → Elt Ideal .f32 :=
  win0_1.fill (grid0.coords t) (fun _ => Scalar.ofBits (F := Ideal) .f32 0#32) (iblk m c 1 t)
def rblk8 (c : Dev nD) (t : Fin cfg0.N) : S7168x256.Idx → Elt Ideal .f32 :=
  win0_2.fill (grid0.coords t) (fun _ => Scalar.ofBits (F := Ideal) .f32 0#32) (iblk m c 2 t)

/-- The proof data: the arrays as the launch finds them; after the body each input buffer at its block (the three
    cut ones filled out) and the output buffer at the stored block of those. -/
def dats (_ : Fin 1) (c : Dev nD) : Dat τ (Elt Ideal) Unit ℕ (UR sig nD τ) ℕ cfg0 c where
  A w := V m c (Pipeline.arrRef spec0 w)
  after w t := match w with
    | ⟨0, _⟩ => nblk8 m c t
    | ⟨1, _⟩ => cblk8 m c t
    | ⟨2, _⟩ => rblk8 m c t
    | ⟨3, _⟩ => iblk m c 3 t
    | ⟨4, _⟩ => iblk m c 4 t
    | ⟨5, _⟩ => iblk m c 5 t
    | ⟨6, _⟩ => iblk m c 6 t
    | ⟨7, _⟩ => out7 (nblk8 m c t) (cblk8 m c t) (rblk8 m c t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = nblk8 m c t := by dsimp only [dats]
theorem after_1 (c : Dev nD) (t : Fin cfg0.N) : (dats m 0 c).after 1 t = cblk8 m c t := by dsimp only [dats]
theorem after_2 (c : Dev nD) (t : Fin cfg0.N) : (dats m 0 c).after 2 t = rblk8 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = out7 (nblk8 m c t) (cblk8 m c t) (rblk8 m c t) (iblk m c 3 t) (iblk m c 4 t) (iblk m c 5 t) (iblk m c 6 t) := by dsimp only [dats]

/-! ## What the body finds -/

/-- The three cut inputs are fetched at every point: the block on the rows inside the array, `d` elsewhere. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl

/-- The four whole operands are fetched once and left in place: at every point the buffer holds the array. -/
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-- The output buffer is never fetched and is written back at every point: the body finds anything in it. -/
theorem before_7 (c : Dev nD) (t : Fin cfg0.N) (d) : (dats m 0 c).before 7 t d = d := by
  unfold Dat.before
  rw [if_neg (by rw [show (cfg0.win 7).fetch t = false from by
    have : ∀ t : Fin cfg0.N, (cfg0.win 7).fetch t = false := (by decide +kernel : ∀ t : Fin grid0.N, win0_7.fetch t = false)
    exact this t]; exact Bool.false_ne_true)]
  by_cases h0 : t.val = 0
  · rw [if_pos h0]
  · rw [if_neg h0]; exact if_pos (flush0_7 _)

/-! ## The cuts -/

/-- At every point the three input windows and the result's cut the row axis alike, and no column axis is cut. -/
theorem cuts (t : Fin cfg0.N) :
    win0_0.xsize (grid0.coords t) 0 = win0_7.xsize (grid0.coords t) 0 ∧ win0_1.xsize (grid0.coords t) 0 = win0_7.xsize (grid0.coords t) 0
    ∧ win0_2.xsize (grid0.coords t) 0 = win0_7.xsize (grid0.coords t) 0
    ∧ win0_0.xsize (grid0.coords t) 1 = 256 ∧ win0_1.xsize (grid0.coords t) 1 = 256 ∧ win0_2.xsize (grid0.coords t) 1 = 256 :=
  (by decide +kernel : ∀ t : Fin grid0.N,
    win0_0.xsize (grid0.coords t) 0 = win0_7.xsize (grid0.coords t) 0 ∧ win0_1.xsize (grid0.coords t) 0 = win0_7.xsize (grid0.coords t) 0
    ∧ win0_2.xsize (grid0.coords t) 0 = win0_7.xsize (grid0.coords t) 0
    ∧ win0_0.xsize (grid0.coords t) 1 = 256 ∧ win0_1.xsize (grid0.coords t) 1 = 256 ∧ win0_2.xsize (grid0.coords t) 1 = 256) t

/-- Two fillings of one block agree wherever the transfer moves the entry: there both are the block. -/
theorem fill_moved {α : Type} (W : Pipeline.Window sig grid0) (i : grid0.Coords) (d d' : W.block.Idx → α) (g : (W.xblock i).Idx → α)
    (y : W.block.Idx) (h : W.moved i y = true) : W.fill i d g y = W.fill i d' g y := by
  unfold Pipeline.Window.fill; rw [dif_pos h, dif_pos h]

/-! ## A stored row reads one row -/

theorem hz2 : (![0, 0] : Fin 2 → Nat) = fun _ => 0 := funext fun a => by fin_cases a <;> rfl

/-- A load of a whole input block reads the block. -/
theorem ld_rIn (X : Vec Ideal S7168x256 .f32) : View.ld X rIn = X := View.ld_unit_zero hz2 _ X

/-- The output buffer after the body is its one whole store. -/
theorem out7_eq (xn xc xr : Vec Ideal S7168x256 .f32) (w : Vec Ideal S256x512 .bf16) (b : Vec Ideal S1x256 .f32)
    (wd : Vec Ideal S256x3 .bf16) (bd : Vec Ideal S1x3 .f32) :
    out7 (F := Ideal) xn xc xr w b wd bd = stored xn xc xr w b wd bd := by
  unfold out7; exact View.canon_cons_unit_zero hz2 _ _ _

/-- Entry (p, q) of the stored block reads row p of the three input buffers and no other row. -/
theorem stored_local (xn xn' xc xc' xr xr' : Vec Ideal S7168x256 .f32) (w : Vec Ideal S256x512 .bf16) (b : Vec Ideal S1x256 .f32)
    (wd : Vec Ideal S256x3 .bf16) (bd : Vec Ideal S1x3 .f32) (p : Fin 7168) (q : Fin 3)
    (hn : ∀ k : Fin 256, xn (ix2 p k) = xn' (ix2 p k)) (hc : ∀ k : Fin 256, xc (ix2 p k) = xc' (ix2 p k))
    (hr : ∀ k : Fin 256, xr (ix2 p k) = xr' (ix2 p k)) :
    stored (F := Ideal) xn xc xr w b wd bd (ix2 p q) = stored xn' xc' xr' w b wd bd (ix2 p q) := by
  unfold stored
  rw [Cert.KernelIdeal.PayRow.pay_row, Cert.KernelIdeal.PayRow.pay_row]
  have e1 : (fun k : Fin 256 => View.ld xn rIn (ix2 p k)) = fun k => View.ld xn' rIn (ix2 p k) :=
    funext fun k => (congrFun (ld_rIn xn) _).trans ((hn k).trans (congrFun (ld_rIn xn') _).symm)
  have e2 : (fun k : Fin 256 => View.ld xc rIn (ix2 p k)) = fun k => View.ld xc' rIn (ix2 p k) :=
    funext fun k => (congrFun (ld_rIn xc) _).trans ((hc k).trans (congrFun (ld_rIn xc') _).symm)
  have e3 : (fun k : Fin 256 => View.ld xr rIn (ix2 p k)) = fun k => View.ld xr' rIn (ix2 p k) :=
    funext fun k => (congrFun (ld_rIn xr) _).trans ((hr k).trans (congrFun (ld_rIn xr') _).symm)
  exact congrFun (congrFun (congrFun (congrFun (congrFun (congrFun
    (congr (congr (congrArg Cert.Spec.outRow e1) e2) e3) _) _) _) _) _) _

/-- On the rows inside the array the output block does not depend on what fills the input buffers past it. -/
theorem cut_out7 (c : Dev nD) (t : Fin cfg0.N) (d0 d1 d2 : S7168x256.Idx → Elt Ideal .f32) :
    win0_7.cut (grid0.coords t)
        (out7 (win0_0.fill (grid0.coords t) d0 (iblk m c 0 t)) (win0_1.fill (grid0.coords t) d1 (iblk m c 1 t))
          (win0_2.fill (grid0.coords t) d2 (iblk m c 2 t)) (iblk m c 3 t) (iblk m c 4 t) (iblk m c 5 t) (iblk m c 6 t))
      = win0_7.cut (grid0.coords t)
        (out7 (nblk8 m c t) (cblk8 m c t) (rblk8 m c t) (iblk m c 3 t) (iblk m c 4 t) (iblk m c 5 t) (iblk m c 6 t)) := by
  obtain ⟨e0, e1, e2, f0, f1, f2⟩ := cuts t
  funext j
  show out7 _ _ _ _ _ _ _ (win0_7.xinj (grid0.coords t) j) = out7 _ _ _ _ _ _ _ (win0_7.xinj (grid0.coords t) j)
  rw [out7_eq, out7_eq, eq_ix2 (win0_7.xinj (grid0.coords t) j)]
  have hp : ((win0_7.xinj (grid0.coords t) j) 0).val < win0_7.xsize (grid0.coords t) 0 := (j 0).isLt
  refine stored_local _ _ _ _ _ _ _ _ _ _ _ _ (fun k => ?_) (fun k => ?_) (fun k => ?_)
  · exact fill_moved win0_0 _ _ _ _ _ ((win0_0.moved_iff _ _).mpr fun a => by
      match a with
      | ⟨0, _⟩ => exact lt_of_lt_of_eq hp e0.symm
      | ⟨1, _⟩ => exact lt_of_lt_of_eq k.isLt f0.symm)
  · exact fill_moved win0_1 _ _ _ _ _ ((win0_1.moved_iff _ _).mpr fun a => by
      match a with
      | ⟨0, _⟩ => exact lt_of_lt_of_eq hp e1.symm
      | ⟨1, _⟩ => exact lt_of_lt_of_eq k.isLt f1.symm)
  · exact fill_moved win0_2 _ _ _ _ _ ((win0_2.moved_iff _ _).mpr fun a => by
      match a with
      | ⟨0, _⟩ => exact lt_of_lt_of_eq hp e2.symm
      | ⟨1, _⟩ => exact lt_of_lt_of_eq k.isLt f2.symm)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns: a cut window's buffer stated on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare ((cfg0.win 7).fill (cfg0.grid.coords t) d ((cfg0.win 7).cut (cfg0.grid.coords t) ((dats m 0 c).after 7 t)))))

set_option maxHeartbeats 1000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m c t d0, before_1 m c t d1, before_2 m c t d2, before_3 m c t d3, before_4 m c t d4, before_5 m c t d5,
    before_6 m c t d6, before_7 m c t d7]
  iapply (sound_kernel (F := Ideal) c Set.univ (grid0.coords t) _ _ _ _ _ _ _ _ _ _ _ _ _ _ _ _
    (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iintro ⟨H0, H1, H2, H3, H4, H5, H6, H7⟩
  isplitl [HΦ]; · iexact HΦ
  isplitl [Ho]; · iexact Ho
  isplitl [H0]
  · iexists d0
    rw [after_0]
    change _ ⊢ owns (c : Thread nD τ) (st0_0 t) fullShare (win0_0.fill (grid0.coords t) d0 (win0_0.cut (grid0.coords t) (nblk8 m c t)))
    unfold nblk8; rw [Pipeline.Window.cut_fill]; try iexact H0
  isplitl [H1]
  · iexists d1
    rw [after_1]
    change _ ⊢ owns (c : Thread nD τ) (st0_1 t) fullShare (win0_1.fill (grid0.coords t) d1 (win0_1.cut (grid0.coords t) (cblk8 m c t)))
    unfold cblk8; rw [Pipeline.Window.cut_fill]; try iexact H1
  isplitl [H2]
  · iexists d2
    rw [after_2]
    change _ ⊢ owns (c : Thread nD τ) (st0_2 t) fullShare (win0_2.fill (grid0.coords t) d2 (win0_2.cut (grid0.coords t) (rblk8 m c t)))
    unfold rblk8; rw [Pipeline.Window.cut_fill]; try iexact H2
  isplitl [H3]; · rw [after_3]; iexact H3
  isplitl [H4]; · rw [after_4]; iexact H4
  isplitl [H5]; · rw [after_5]; iexact H5
  isplitl [H6]; · rw [after_6]; iexact H6
  iexists (out7 (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t))
  rw [after_7]
  change _ ⊢ owns (c : Thread nD τ) (st0_7 t) fullShare (win0_7.fill (grid0.coords t) _ (win0_7.cut (grid0.coords t) _))
  rw [win0_7.fill_congr_cut _ (cut_out7 m c t d0 d1 d2)]
  try iexact H7

/-- The library's body obligation, at every point: no point is idle; windows 0, 1, 2 and 7 are stated on the
    rows inside the arrays. -/
theorem body_obligation (c : Dev nD) : BodyObligationLoose (dats m 0 c) (defs₀ (F := Ideal)) Variants.none () Set.univ := fun t => by
  rw [bigSep_W0, bigSep_W0]
  simp only
  exact sound_body m c t

/-! ## The run -/

set_option backward.isDefEq.respectTransparency.types false in
/-- Every weakly fair execution of the program terminates, every array of the launch at what the proof data
    computes and every other buffer as the launch found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

end Cert.KernelIdeal.Hand

end
-- ==== Proof.KIdealHostVals.lean ====
/-
  What the four packed operands hold. Before the launch the two first-layer weight matrices are cut into an upper and a
  lower half each (rows 0 to 255, rows 256 to 511), the four halves are set side by side into one matrix of 512 columns,
  and that matrix changes format; the two first-layer bias vectors are joined end to end and written as one row; the
  output weights change format; the output bias is written as one row. On the extended reals a change of format is the
  identity, a slice reads the source at the shifted row, a join reads the piece whose span holds the column, and a
  vector written as one row reads the vector at the column. So each operand, at an index, is one entry of one argument
  array: the statements below say which.
-/
import proofs.«122431_g32006096290012_cont_8to1_b_1154_27_alg».proof.Proof.KIdealPrefix
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostVals

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-! ## The four packed operands as terms over the argument arrays -/

/-- The first-layer weight operand: the two matrices' upper halves, then their lower halves, side by side, in the
    narrower format. -/
theorem v5_eq :
    (V m c main_v5 : S256x512.Idx → EReal)
      = truncf (F := Ideal) .bf16 (concatenate S256x512 1
          [⟨S256x128, extractStridedSlice S256x128 ![0, 0] (m ((c : Thread nD τ).loc main_arg3) : S512x128.Idx → EReal) slices_S512x128_S256x128_0_0⟩,
           ⟨S256x128, extractStridedSlice S256x128 ![0, 0] (m ((c : Thread nD τ).loc main_arg5) : S512x128.Idx → EReal) slices_S512x128_S256x128_0_0⟩,
           ⟨S256x128, extractStridedSlice S256x128 ![256, 0] (m ((c : Thread nD τ).loc main_arg3) : S512x128.Idx → EReal) slices_S512x128_S256x128_256_0⟩,
           ⟨S256x128, extractStridedSlice S256x128 ![256, 0] (m ((c : Thread nD τ).loc main_arg5) : S512x128.Idx → EReal) slices_S512x128_S256x128_256_0⟩]
          concatenates_S256x128_S256x128_S256x128_S256x128_S256x512_d1) bitsLt_bf16_f32 := by
  dsimp only [V, hostOps0]; after_results; rfl

/-- The first-layer bias operand: the two bias vectors end to end, as one row. -/
theorem v7_eq :
    (V m c main_v7 : S1x256.Idx → EReal)
      = shapeCast S1x256 (concatenate S256 0
          [⟨S128, (m ((c : Thread nD τ).loc main_arg4) : S128.Idx → EReal)⟩,
           ⟨S128, (m ((c : Thread nD τ).loc main_arg6) : S128.Idx → EReal)⟩]
          concatenates_S128_S128_S256_d0) shapeCasts_S256_S1x256 := by
  dsimp only [V, hostOps0]; after_results; rfl

/-- The output weights in the narrower format hold the same extended reals. -/
theorem v8_eq : (V m c main_v8 : S256x3.Idx → EReal) = m ((c : Thread nD τ).loc main_arg7) := by
  dsimp only [V, hostOps0]; after_results; rfl

/-- The output bias as one row. -/
theorem v9_eq :
    (V m c main_v9 : S1x3.Idx → EReal)
      = shapeCast S1x3 (m ((c : Thread nD τ).loc main_arg8) : S3.Idx → EReal) shapeCasts_S3_S1x3 := by
  dsimp only [V, hostOps0]; after_results; rfl

/-- The bias row at column `q` is the output bias at `q`. -/
theorem v9_apply (q : Fin 3) :
    V m c main_v9 (ix2 (0 : Fin 1) q) = m ((c : Thread nD τ).loc main_arg8) (ix1 q) :=
  (congrFun (v9_eq m c) _).trans (shapeCast_a_1a_apply _ _ 0 q)

/-! ## The packed operands read at an index -/

/-- The bias row's left half is the first bias vector. -/
theorem v7_lo (j : Fin 128) :
    V m c main_v7 (ix2 (0 : Fin 1) (Fin.castAdd 128 j)) = m ((c : Thread nD τ).loc main_arg4) (ix1 j) := by
  refine (congrFun (v7_eq m c) _).trans ?_
  refine (shapeCast_a_1a_apply _ _ 0 (Fin.castAdd 128 j)).trans ?_
  exact concatenate_pair_apply_left (0 : Fin S256.rank) _ _ concatenates_S128_S128_S256_d0 _ rfl (ix1 j)
    (fun b => by match b with | ⟨0, _⟩ => rfl)

/-- The bias row's right half is the second bias vector. -/
theorem v7_hi (j : Fin 128) :
    V m c main_v7 (ix2 (0 : Fin 1) (Fin.natAdd 128 j)) = m ((c : Thread nD τ).loc main_arg6) (ix1 j) := by
  refine (congrFun (v7_eq m c) _).trans ?_
  refine (shapeCast_a_1a_apply _ _ 0 (Fin.natAdd 128 j)).trans ?_
  exact concatenate_pair_apply_right (0 : Fin S256.rank) _ _ concatenates_S128_S128_S256_d0 _ rfl rfl (ix1 j)
    (fun b hb => by match b with | ⟨0, _⟩ => exact absurd (Fin.ext rfl) hb)
    (by show j.val + 128 = 128 + j.val; omega)

/-- Columns 0 to 127 of the weight operand are the upper half of the first matrix. -/
theorem v5_q0 (k : Fin 256) (j : Fin 128) :
    V m c main_v5 (ix2 k (Fin.castAdd 384 j)) = m ((c : Thread nD τ).loc main_arg3) (ix2 (Fin.castAdd 256 k) j) := by
  refine (congrFun (v5_eq m c) _).trans ?_
  refine (truncf_apply (s := S256x512) (φ := .f32) (ψ := .bf16) _ bitsLt_bf16_f32 _).trans ?_
  refine (concatenate_apply_piece (1 : Fin S256x512.rank) _ _
    (ix2 k (Fin.castAdd 384 j)) 0 (by show (0 : Nat) < 4; omega) S256x128 _ rfl rfl 0 rfl (ix2 k j) ?_ ?_).trans ?_
  · intro b hb
    match b with
    | ⟨0, _⟩ => rfl
    | ⟨1, _⟩ => exact absurd (Fin.ext rfl) hb
  · exact Nat.zero_add _
  exact slice2_axis0_apply 0 _ _ k j (Fin.castAdd 256 k) (Nat.zero_add _).symm

/-- Columns 128 to 255 are the upper half of the second matrix. -/
theorem v5_q1 (k : Fin 256) (j : Fin 128) :
    V m c main_v5 (ix2 k ⟨128 + j.val, by omega⟩) = m ((c : Thread nD τ).loc main_arg5) (ix2 (Fin.castAdd 256 k) j) := by
  refine (congrFun (v5_eq m c) _).trans ?_
  refine (truncf_apply (s := S256x512) (φ := .f32) (ψ := .bf16) _ bitsLt_bf16_f32 _).trans ?_
  refine (concatenate_apply_piece (1 : Fin S256x512.rank) _ _
    (ix2 k ⟨128 + j.val, by omega⟩) 1 (by show (1 : Nat) < 4; omega) S256x128 _ rfl rfl 128 rfl (ix2 k j) ?_ ?_).trans ?_
  · intro b hb
    match b with
    | ⟨0, _⟩ => rfl
    | ⟨1, _⟩ => exact absurd (Fin.ext rfl) hb
  · rfl
  exact slice2_axis0_apply 0 _ _ k j (Fin.castAdd 256 k) (Nat.zero_add _).symm

/-- Columns 256 to 383 are the lower half of the first matrix. -/
theorem v5_q2 (k : Fin 256) (j : Fin 128) :
    V m c main_v5 (ix2 k ⟨256 + j.val, by omega⟩) = m ((c : Thread nD τ).loc main_arg3) (ix2 (Fin.natAdd 256 k) j) := by
  refine (congrFun (v5_eq m c) _).trans ?_
  refine (truncf_apply (s := S256x512) (φ := .f32) (ψ := .bf16) _ bitsLt_bf16_f32 _).trans ?_
  refine (concatenate_apply_piece (1 : Fin S256x512.rank) _ _
    (ix2 k ⟨256 + j.val, by omega⟩) 2 (by show (2 : Nat) < 4; omega) S256x128 _ rfl rfl 256 rfl (ix2 k j) ?_ ?_).trans ?_
  · intro b hb
    match b with
    | ⟨0, _⟩ => rfl
    | ⟨1, _⟩ => exact absurd (Fin.ext rfl) hb
  · rfl
  exact slice2_axis0_apply 256 _ _ k j (Fin.natAdd 256 k) rfl

/-- Columns 384 to 511 are the lower half of the second matrix. -/
theorem v5_q3 (k : Fin 256) (j : Fin 128) :
    V m c main_v5 (ix2 k ⟨384 + j.val, by omega⟩) = m ((c : Thread nD τ).loc main_arg5) (ix2 (Fin.natAdd 256 k) j) := by
  refine (congrFun (v5_eq m c) _).trans ?_
  refine (truncf_apply (s := S256x512) (φ := .f32) (ψ := .bf16) _ bitsLt_bf16_f32 _).trans ?_
  refine (concatenate_apply_piece (1 : Fin S256x512.rank) _ _
    (ix2 k ⟨384 + j.val, by omega⟩) 3 (by show (3 : Nat) < 4; omega) S256x128 _ rfl rfl 384 rfl (ix2 k j) ?_ ?_).trans ?_
  · intro b hb
    match b with
    | ⟨0, _⟩ => rfl
    | ⟨1, _⟩ => exact absurd (Fin.ext rfl) hb
  · rfl
  exact slice2_axis0_apply 256 _ _ k j (Fin.natAdd 256 k) rfl

end Cert.KernelIdeal.HostVals
end
-- ==== Proof.KIdealWeights.lean ====
/-
  What the body's loads of the four whole operands read. The packed first-layer weights, the packed bias row, the
  output weights and the output bias row each reach the body as one block that is the whole array. The body loads
  column ranges 0 to 127, 128 to 255 and 256 to 511 of the packed weights, the two halves of the bias row, and the
  upper and lower 128 rows of the output weights. Column ranges 0 to 127 and 256 to 383 are the upper and the lower
  256 rows of the first weight matrix, ranges 128 to 255 and 384 to 511 those of the second; the bias row's halves
  are the two bias vectors; the output weights and bias are the arguments themselves. So each branch's weights, laid
  out as its own rows above its half of the shared columns, are the rows of its argument matrix.
-/
import proofs.«122431_g32006096290012_cont_8to1_b_1154_27_alg».proof.Proof.KIdealRun
import proofs.«122431_g32006096290012_cont_8to1_b_1154_27_alg».proof.Proof.KIdealHostVals
import Idealize.ShloMosaic.Lib.Pipeline.Value
import Idealize.ShloMosaic.Lib.ValueIdx

set_option maxRecDepth 16384

noncomputable section

namespace Cert.KernelIdeal.Weights

open Cert.KernelIdeal Cert.KernelIdeal.Gen Cert.KernelIdeal.Hand Cert.KernelIdeal.HostVals
open Idealize.ShloMosaic Idealize.ShloMosaic.TcCoe Idealize.ShloMosaic.ValueIdx Idealize.SL.Sem

variable (m : (ℓ : Loc nD τ sig) → Buf (Elt Ideal) ℓ) (c : Dev nD)

/-! ## The four whole operands' blocks are the arrays

Each of these windows has the whole array as its one block, at block index zero on both axes, and no transfer of it is
cut: an entry of the block sits in the array at its own coordinates. -/

/-- The packed first-layer weights' block is the array. -/
theorem iblk3_eq (t : Fin cfg0.N) : (iblk m c 3 t : S256x512.Idx → EReal) = V m c main_v5 := by
  funext j
  show V m c main_v5 (((cfg0.win 3).blk t).view.emb j) = V m c main_v5 j
  refine congrArg (V m c main_v5) (funext fun a => Fin.ext ?_)
  match a with
  | ⟨0, _⟩ =>
    show win0_3.index t (0 : Fin 2) * 256 + 1 * (j 0).val = (j 0).val
    rw [show win0_3.index t (0 : Fin 2) = 0 from rfl]; omega
  | ⟨1, _⟩ =>
    show win0_3.index t (1 : Fin 2) * 512 + 1 * (j 1).val = (j 1).val
    rw [show win0_3.index t (1 : Fin 2) = 0 from rfl]; omega

/-- The packed first-layer bias row's block is the array. -/
theorem iblk4_eq (t : Fin cfg0.N) : (iblk m c 4 t : S1x256.Idx → EReal) = V m c main_v7 := by
  funext j
  show V m c main_v7 (((cfg0.win 4).blk t).view.emb j) = V m c main_v7 j
  refine congrArg (V m c main_v7) (funext fun a => Fin.ext ?_)
  match a with
  | ⟨0, _⟩ =>
    show win0_4.index t (0 : Fin 2) * 1 + 1 * (j 0).val = (j 0).val
    rw [show win0_4.index t (0 : Fin 2) = 0 from rfl]; omega
  | ⟨1, _⟩ =>
    show win0_4.index t (1 : Fin 2) * 256 + 1 * (j 1).val = (j 1).val
    rw [show win0_4.index t (1 : Fin 2) = 0 from rfl]; omega

/-- The output weights' block is the array. -/
theorem iblk5_eq (t : Fin cfg0.N) : (iblk m c 5 t : S256x3.Idx → EReal) = V m c main_v8 := by
  funext j
  show V m c main_v8 (((cfg0.win 5).blk t).view.emb j) = V m c main_v8 j
  refine congrArg (V m c main_v8) (funext fun a => Fin.ext ?_)
  match a with
  | ⟨0, _⟩ =>
    show win0_5.index t (0 : Fin 2) * 256 + 1 * (j 0).val = (j 0).val
    rw [show win0_5.index t (0 : Fin 2) = 0 from rfl]; omega
  | ⟨1, _⟩ =>
    show win0_5.index t (1 : Fin 2) * 3 + 1 * (j 1).val = (j 1).val
    rw [show win0_5.index t (1 : Fin 2) = 0 from rfl]; omega

/-- The output bias row's block is the array. -/
theorem iblk6_eq (t : Fin cfg0.N) : (iblk m c 6 t : S1x3.Idx → EReal) = V m c main_v9 := by
  funext j
  show V m c main_v9 (((cfg0.win 6).blk t).view.emb j) = V m c main_v9 j
  refine congrArg (V m c main_v9) (funext fun a => Fin.ext ?_)
  match a with
  | ⟨0, _⟩ =>
    show win0_6.index t (0 : Fin 2) * 1 + 1 * (j 0).val = (j 0).val
    rw [show win0_6.index t (0 : Fin 2) = 0 from rfl]; omega
  | ⟨1, _⟩ =>
    show win0_6.index t (1 : Fin 2) * 3 + 1 * (j 1).val = (j 1).val
    rw [show win0_6.index t (1 : Fin 2) = 0 from rfl]; omega

/-! ## What the body's loads read

A load through a unit-stride rectangle reads the array at the rectangle's offset plus the coordinate. -/

/-- A load of a matrix through a unit-stride rectangle, at an entry: the matrix at the shifted row and column. -/
theorem ld_ix2 {n0 n1 : Nat} (X : (⟨2, ![n0, n1]⟩ : Shape).Idx → EReal) (r : Rect ⟨2, ![n0, n1]⟩) (y : r.shape.Idx)
    (a : Fin n0) (b : Fin n1) (h0 : (r.emb y 0 : Nat) = a.val) (h1 : (r.emb y 1 : Nat) = b.val) :
    X (r.emb y) = X (ix2 a b) :=
  congrArg X (funext fun d => Fin.ext (by
    match d with
    | ⟨0, _⟩ => exact h0
    | ⟨1, _⟩ => exact h1))

/-- The first branch's first-layer weights: its own 128 columns of the packed matrix above its half of the packed
    right-hand columns are the rows of the first weight matrix. -/
theorem Wn_eq (k : Fin 512) (j : Fin 128) :
    Fin.addCases (fun k' : Fin 256 => View.ld (V m c main_v5 : S256x512.Idx → EReal) rWn (ix2 k' j))
      (fun k' : Fin 256 => View.ld (V m c main_v5 : S256x512.Idx → EReal) rWc (ix2 k' (Fin.castAdd 128 j))) k
      = m ((c : Thread nD τ).loc main_arg3) (ix2 k j) := by
  revert k
  refine Fin.addCases (m := 256) (n := 256) (fun k' => ?_) (fun k' => ?_)
  · rw [Fin.addCases_left]
    refine Eq.trans ?_ (v5_q0 m c k' j)
    exact ld_ix2 (V m c main_v5) rWn (ix2 k' j) k' (Fin.castAdd 384 j)
      (by show 0 + 1 * k'.val = k'.val; omega) (by show 0 + 1 * j.val = j.val; omega)
  · rw [Fin.addCases_right]
    refine Eq.trans ?_ (v5_q2 m c k' j)
    exact ld_ix2 (V m c main_v5) rWc (ix2 k' (Fin.castAdd 128 j)) k' ⟨256 + j.val, by omega⟩
      (by show 0 + 1 * k'.val = k'.val; omega) (by show 256 + 1 * j.val = 256 + j.val; omega)

/-- The second branch's first-layer weights, likewise, are the rows of the second weight matrix. -/
theorem Wr_eq (k : Fin 512) (j : Fin 128) :
    Fin.addCases (fun k' : Fin 256 => View.ld (V m c main_v5 : S256x512.Idx → EReal) rWr (ix2 k' j))
      (fun k' : Fin 256 => View.ld (V m c main_v5 : S256x512.Idx → EReal) rWc (ix2 k' (Fin.natAdd 128 j))) k
      = m ((c : Thread nD τ).loc main_arg5) (ix2 k j) := by
  revert k
  refine Fin.addCases (m := 256) (n := 256) (fun k' => ?_) (fun k' => ?_)
  · rw [Fin.addCases_left]
    refine Eq.trans ?_ (v5_q1 m c k' j)
    exact ld_ix2 (V m c main_v5) rWr (ix2 k' j) k' ⟨128 + j.val, by omega⟩
      (by show 0 + 1 * k'.val = k'.val; omega) (by show 128 + 1 * j.val = 128 + j.val; omega)
  · rw [Fin.addCases_right]
    refine Eq.trans ?_ (v5_q3 m c k' j)
    exact ld_ix2 (V m c main_v5) rWc (ix2 k' (Fin.natAdd 128 j)) k' ⟨384 + j.val, by omega⟩
      (by show 0 + 1 * k'.val = k'.val; omega) (by show 256 + 1 * (128 + j.val) = 384 + j.val; omega)

/-- The first branch's bias is the first bias vector. -/
theorem bn_eq (j : Fin 128) :
    View.ld (V m c main_v7 : S1x256.Idx → EReal) rBn (ix2 (0 : Fin 1) j) = m ((c : Thread nD τ).loc main_arg4) (ix1 j) := by
  refine Eq.trans ?_ (v7_lo m c j)
  exact ld_ix2 (V m c main_v7) rBn (ix2 (0 : Fin 1) j) 0 (Fin.castAdd 128 j)
    (by show 0 + 1 * 0 = 0; omega) (by show 0 + 1 * j.val = j.val; omega)

/-- The second branch's bias is the second bias vector. -/
theorem br_eq (j : Fin 128) :
    View.ld (V m c main_v7 : S1x256.Idx → EReal) rBr (ix2 (0 : Fin 1) j) = m ((c : Thread nD τ).loc main_arg6) (ix1 j) := by
  refine Eq.trans ?_ (v7_hi m c j)
  exact ld_ix2 (V m c main_v7) rBr (ix2 (0 : Fin 1) j) 0 (Fin.natAdd 128 j)
    (by show 0 + 1 * 0 = 0; omega) (by show 128 + 1 * j.val = 128 + j.val; omega)

/-- The output weights' upper 128 rows above their lower 128 rows are the output weight matrix. -/
theorem Wd_eq (k : Fin 256) (q : Fin 3) :
    Fin.addCases (fun k' : Fin 128 => View.ld (V m c main_v8 : S256x3.Idx → EReal) rDn (ix2 k' q))
      (fun k' : Fin 128 => View.ld (V m c main_v8 : S256x3.Idx → EReal) rDr (ix2 k' q)) k
      = m ((c : Thread nD τ).loc main_arg7) (ix2 k q) := by
  revert k
  refine Fin.addCases (m := 128) (n := 128) (fun k' => ?_) (fun k' => ?_)
  · rw [Fin.addCases_left]
    refine Eq.trans ?_ (congrFun (v8_eq m c) (ix2 (Fin.castAdd 128 k') q))
    exact ld_ix2 (V m c main_v8) rDn (ix2 k' q) (Fin.castAdd 128 k') q
      (by show 0 + 1 * k'.val = k'.val; omega) (by show 0 + 1 * q.val = q.val; omega)
  · rw [Fin.addCases_right]
    refine Eq.trans ?_ (congrFun (v8_eq m c) (ix2 (Fin.natAdd 128 k') q))
    exact ld_ix2 (V m c main_v8) rDr (ix2 k' q) (Fin.natAdd 128 k') q
      (by show 128 + 1 * k'.val = 128 + k'.val; omega) (by show 0 + 1 * q.val = q.val; omega)

/-- The output bias row is the output bias vector. -/
theorem bd_eq (q : Fin 3) :
    View.ld (V m c main_v9 : S1x3.Idx → EReal) rBd (ix2 (0 : Fin 1) q) = m ((c : Thread nD τ).loc main_arg8) (ix1 q) := by
  refine Eq.trans ?_ (v9_apply m c q)
  exact ld_ix2 (V m c main_v9) rBd (ix2 (0 : Fin 1) q) 0 q
    (by show 0 + 1 * 0 = 0; omega) (by show 0 + 1 * q.val = q.val; omega)

end Cert.KernelIdeal.Weights
end
-- ==== Proof.KIdealBlocks.lean ====
/-
  Where the launch's row blocks sit in their arrays: block `t` of each row-blocked window starts at row
  `t * 7168`, keeps the columns, and is cut at row 100000; the fourteen result blocks cover the result.
-/
import proofs.«122431_g32006096290012_cont_8to1_b_1154_27_alg».proof.Proof.Gen.KernelIdeal.Points
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.ValueIdx

/-- The grid has fourteen points. -/
theorem gridN : grid0.N = 14 := by decide

/-- The result window's block index at point `t` is `(t, 0)`, and its cut sizes. -/
theorem idx7 : ∀ t : Fin grid0.N, win0_7.index t 0 = t.val ∧ win0_7.index t 1 = 0
    ∧ win0_7.xsize (grid0.coords t) 0 = min 7168 (100000 - t.val * 7168) ∧ win0_7.xsize (grid0.coords t) 1 = 3 := by
  decide +kernel

/-- Entry `j` of the result window's block `t` is the array's entry `7168 t` rows further down, in the same column. -/
theorem blk7_emb (t : Fin cfg0.N) (j : (win0_7.xblock (grid0.coords t)).Idx) :
    (((win0_7.blk t).view.emb j) 0).val = t.val * 7168 + (j 0).val ∧ (((win0_7.blk t).view.emb j) 1).val = (j 1).val := by
  refine ⟨?_, ?_⟩
  · show win0_7.index t 0 * 7168 + 1 * (j 0).val = t.val * 7168 + (j 0).val
    rw [(idx7 t).1]; omega
  · show win0_7.index t 1 * 3 + 1 * (j 1).val = (j 1).val
    rw [(idx7 t).2.1]; omega

/-- Input window 0's block index at point `t` is `(t, 0)`. -/
theorem idx0 : ∀ t : Fin grid0.N, win0_0.index t 0 = t.val ∧ win0_0.index t 1 = 0 := by
  decide +kernel

/-- Entry `j` of input window 0's block `t` is the array's entry `7168 t` rows further down, in the same column. -/
theorem blk0_emb (t : Fin cfg0.N) (j : (win0_0.xblock (grid0.coords t)).Idx) :
    (((win0_0.blk t).view.emb j) 0).val = t.val * 7168 + (j 0).val ∧ (((win0_0.blk t).view.emb j) 1).val = (j 1).val := by
  refine ⟨?_, ?_⟩
  · show win0_0.index t 0 * 7168 + 1 * (j 0).val = t.val * 7168 + (j 0).val
    rw [(idx0 t).1]; omega
  · show win0_0.index t 1 * 256 + 1 * (j 1).val = (j 1).val
    rw [(idx0 t).2]; omega

/-- Input window 1's block index at point `t` is `(t, 0)`. -/
theorem idx1 : ∀ t : Fin grid0.N, win0_1.index t 0 = t.val ∧ win0_1.index t 1 = 0 := by
  decide +kernel

/-- Entry `j` of input window 1's block `t` is the array's entry `7168 t` rows further down, in the same column. -/
theorem blk1_emb (t : Fin cfg0.N) (j : (win0_1.xblock (grid0.coords t)).Idx) :
    (((win0_1.blk t).view.emb j) 0).val = t.val * 7168 + (j 0).val ∧ (((win0_1.blk t).view.emb j) 1).val = (j 1).val := by
  refine ⟨?_, ?_⟩
  · show win0_1.index t 0 * 7168 + 1 * (j 0).val = t.val * 7168 + (j 0).val
    rw [(idx1 t).1]; omega
  · show win0_1.index t 1 * 256 + 1 * (j 1).val = (j 1).val
    rw [(idx1 t).2]; omega

/-- Input window 2's block index at point `t` is `(t, 0)`. -/
theorem idx2 : ∀ t : Fin grid0.N, win0_2.index t 0 = t.val ∧ win0_2.index t 1 = 0 := by
  decide +kernel

/-- Entry `j` of input window 2's block `t` is the array's entry `7168 t` rows further down, in the same column. -/
theorem blk2_emb (t : Fin cfg0.N) (j : (win0_2.xblock (grid0.coords t)).Idx) :
    (((win0_2.blk t).view.emb j) 0).val = t.val * 7168 + (j 0).val ∧ (((win0_2.blk t).view.emb j) 1).val = (j 1).val := by
  refine ⟨?_, ?_⟩
  · show win0_2.index t 0 * 7168 + 1 * (j 0).val = t.val * 7168 + (j 0).val
    rw [(idx2 t).1]; omega
  · show win0_2.index t 1 * 256 + 1 * (j 1).val = (j 1).val
    rw [(idx2 t).2]; omega

/-- The result window's block `t` keeps its rows below row 100000, at most 7168 of them, and all three columns. -/
theorem xsize7 (t : Fin cfg0.N) :
    win0_7.xsize (grid0.coords t) 0 = min 7168 (100000 - t.val * 7168) ∧ win0_7.xsize (grid0.coords t) 1 = 3 :=
  ⟨(idx7 t).2.2.1, (idx7 t).2.2.2⟩

/-- Every entry of the result lies in a block that is written back: row `r` in block `r / 7168`. -/
theorem cover (i : S100000x3.Idx) : ∃ t : Fin cfg0.N, (cfg0.win 7).flush t = true ∧ i ∈ ((cfg0.win 7).blk t).view.set := by
  have h0 : (i 0).val < 100000 := (i 0).isLt
  have h1 : (i 1).val < 3 := (i 1).isLt
  have ht : (i 0).val / 7168 < grid0.N := by rw [gridN]; omega
  obtain ⟨t, et⟩ : ∃ t : Fin grid0.N, t.val = (i 0).val / 7168 := ⟨⟨_, ht⟩, rfl⟩
  refine ⟨t, flush0_7 t, ?_⟩
  show i ∈ ((View.whole main_v10).slice (win0_7.rect t)).set
  rw [View.set_slice_whole, Rect.mem_set_unit]
  obtain ⟨e0, e1, s0, s1⟩ := idx7 t
  intro a
  match a with
  | ⟨0, _⟩ =>
    show win0_7.index t 0 * 7168 ≤ (i 0).val ∧ (i 0).val < win0_7.index t 0 * 7168 + win0_7.xsize (grid0.coords t) 0
    rw [e0, s0]; omega
  | ⟨1, _⟩ =>
    show win0_7.index t 1 * 3 ≤ (i 1).val ∧ (i 1).val < win0_7.index t 1 * 3 + win0_7.xsize (grid0.coords t) 1
    rw [e1, s1]; omega

end Cert.KernelIdeal.Blocks

end
-- ==== Proof.KIdealInputRows.lean ====
/-
  A row of a filled-out input block is a row of the argument array. Point `t`'s block of an input starts at row
  `t × 7168` of the array; the staging buffer holds, on the rows the transfer moves (row `p` with `p` below the cut,
  which is the result window's cut too), the array's row `t × 7168 + p`, whatever fills the rest; and no operation
  before the launch writes an argument, so the array the launch finds is the argument.
-/
import proofs.«122431_g32006096290012_cont_8to1_b_1154_27_alg».proof.Proof.KIdealRun
import proofs.«122431_g32006096290012_cont_8to1_b_1154_27_alg».proof.Proof.KIdealBlocks

set_option maxRecDepth 16384

noncomputable section

namespace Cert.KernelIdeal.InputRows

open Cert.KernelIdeal Cert.KernelIdeal.Gen Cert.KernelIdeal.Hand Cert.KernelIdeal.Blocks Idealize.ShloMosaic Idealize.ShloMosaic.TcCoe Idealize.ShloMosaic.ValueIdx Idealize.SL.Sem

variable (m : (ℓ : Loc nD τ sig) → Buf (Elt Ideal) ℓ) (c : Dev nD)

/-- Row `p` of point `t`'s filled-out block of `neighbor`, for `p` below the cut, is row `t × 7168 + p` of the argument
    array: the entry is one the transfer moves, the block reads the array as the launch finds it, which is the
    argument itself, and the block starts at row `t × 7168`. -/
theorem nrow (t : Fin cfg0.N) (p : Fin 7168) (hp : p.val < win0_7.xsize (grid0.coords t) 0) (r : Fin 100000)
    (hr : r.val = t.val * 7168 + p.val) (k : Fin 256) :
    nblk8 m c t (ix2 p k) = m ((c : Thread nD τ).loc main_arg0) (ix2 r k) := by
  obtain ⟨e0, e1, e2, f0, f1, f2⟩ := cuts t
  obtain ⟨j', h0, h1⟩ : ∃ j' : (win0_0.xblock (grid0.coords t)).Idx, (j' 0).val = p.val ∧ (j' 1).val = k.val :=
    ⟨fun a => match a with
      | ⟨0, _⟩ => ⟨p.val, lt_of_lt_of_eq hp e0.symm⟩
      | ⟨1, _⟩ => ⟨k.val, lt_of_lt_of_eq k.isLt f0.symm⟩, rfl, rfl⟩
  have hx : (ix2 p k : S7168x256.Idx) = win0_0.xinj (grid0.coords t) j' := funext fun a => Fin.ext (by
    match a with
    | ⟨0, _⟩ => exact h0.symm
    | ⟨1, _⟩ => exact h1.symm)
  unfold nblk8
  rw [hx, Pipeline.Window.fill_xinj]
  unfold iblk
  rw [View.read_apply]
  show V m c main_arg0 ((win0_0.blk t).view.emb j') = _
  rw [V_main_arg0]
  obtain ⟨b0, b1⟩ := blk0_emb t j'
  refine congrArg _ (funext fun a => Fin.ext ?_)
  match a with
  | ⟨0, _⟩ => exact b0.trans ((congrArg (t.val * 7168 + ·) h0).trans hr.symm)
  | ⟨1, _⟩ => exact b1.trans h1

/-- Row `p` of point `t`'s filled-out block of `current`, for `p` below the cut, is row `t × 7168 + p` of the argument
    array: the entry is one the transfer moves, the block reads the array as the launch finds it, which is the
    argument itself, and the block starts at row `t × 7168`. -/
theorem crow (t : Fin cfg0.N) (p : Fin 7168) (hp : p.val < win0_7.xsize (grid0.coords t) 0) (r : Fin 100000)
    (hr : r.val = t.val * 7168 + p.val) (k : Fin 256) :
    cblk8 m c t (ix2 p k) = m ((c : Thread nD τ).loc main_arg1) (ix2 r k) := by
  obtain ⟨e0, e1, e2, f0, f1, f2⟩ := cuts t
  obtain ⟨j', h0, h1⟩ : ∃ j' : (win0_1.xblock (grid0.coords t)).Idx, (j' 0).val = p.val ∧ (j' 1).val = k.val :=
    ⟨fun a => match a with
      | ⟨0, _⟩ => ⟨p.val, lt_of_lt_of_eq hp e1.symm⟩
      | ⟨1, _⟩ => ⟨k.val, lt_of_lt_of_eq k.isLt f1.symm⟩, rfl, rfl⟩
  have hx : (ix2 p k : S7168x256.Idx) = win0_1.xinj (grid0.coords t) j' := funext fun a => Fin.ext (by
    match a with
    | ⟨0, _⟩ => exact h0.symm
    | ⟨1, _⟩ => exact h1.symm)
  unfold cblk8
  rw [hx, Pipeline.Window.fill_xinj]
  unfold iblk
  rw [View.read_apply]
  show V m c main_arg1 ((win0_1.blk t).view.emb j') = _
  rw [V_main_arg1]
  obtain ⟨b0, b1⟩ := blk1_emb t j'
  refine congrArg _ (funext fun a => Fin.ext ?_)
  match a with
  | ⟨0, _⟩ => exact b0.trans ((congrArg (t.val * 7168 + ·) h0).trans hr.symm)
  | ⟨1, _⟩ => exact b1.trans h1

/-- Row `p` of point `t`'s filled-out block of `remote`, for `p` below the cut, is row `t × 7168 + p` of the argument
    array: the entry is one the transfer moves, the block reads the array as the launch finds it, which is the
    argument itself, and the block starts at row `t × 7168`. -/
theorem rrow (t : Fin cfg0.N) (p : Fin 7168) (hp : p.val < win0_7.xsize (grid0.coords t) 0) (r : Fin 100000)
    (hr : r.val = t.val * 7168 + p.val) (k : Fin 256) :
    rblk8 m c t (ix2 p k) = m ((c : Thread nD τ).loc main_arg2) (ix2 r k) := by
  obtain ⟨e0, e1, e2, f0, f1, f2⟩ := cuts t
  obtain ⟨j', h0, h1⟩ : ∃ j' : (win0_2.xblock (grid0.coords t)).Idx, (j' 0).val = p.val ∧ (j' 1).val = k.val :=
    ⟨fun a => match a with
      | ⟨0, _⟩ => ⟨p.val, lt_of_lt_of_eq hp e2.symm⟩
      | ⟨1, _⟩ => ⟨k.val, lt_of_lt_of_eq k.isLt f2.symm⟩, rfl, rfl⟩
  have hx : (ix2 p k : S7168x256.Idx) = win0_2.xinj (grid0.coords t) j' := funext fun a => Fin.ext (by
    match a with
    | ⟨0, _⟩ => exact h0.symm
    | ⟨1, _⟩ => exact h1.symm)
  unfold rblk8
  rw [hx, Pipeline.Window.fill_xinj]
  unfold iblk
  rw [View.read_apply]
  show V m c main_arg2 ((win0_2.blk t).view.emb j') = _
  rw [V_main_arg2]
  obtain ⟨b0, b1⟩ := blk2_emb t j'
  refine congrArg _ (funext fun a => Fin.ext ?_)
  match a with
  | ⟨0, _⟩ => exact b0.trans ((congrArg (t.val * 7168 + ·) h0).trans hr.symm)
  | ⟨1, _⟩ => exact b1.trans h1

end Cert.KernelIdeal.InputRows

end
-- ==== Proof.KIdealValue.lean ====
/-
  The result array. Point t writes back the rows of its block that lie inside the array; a stored row is the
  row function of the same rows of the three inputs, and those rows are the argument arrays' rows t × 7168 + p.
  The fourteen blocks cover the 100000 rows, so the array ends holding the row function at every row.
-/
import proofs.«122431_g32006096290012_cont_8to1_b_1154_27_alg».proof.Proof.KIdealRun
import proofs.«122431_g32006096290012_cont_8to1_b_1154_27_alg».proof.Proof.KIdealWeights
import proofs.«122431_g32006096290012_cont_8to1_b_1154_27_alg».proof.Proof.KIdealInputRows
import proofs.«122431_g32006096290012_cont_8to1_b_1154_27_alg».proof.Proof.KIdealBlocks
import proofs.«122431_g32006096290012_cont_8to1_b_1154_27_alg».proof.Proof.Spec

set_option maxRecDepth 16384

noncomputable section

namespace Cert.KernelIdeal.Hand

open Cert.KernelIdeal Cert.KernelIdeal.Gen Cert.KernelIdeal.Weights Cert.KernelIdeal.InputRows Cert.KernelIdeal.Blocks
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The row function over the nine argument arrays as launched. -/
def Gm (c : Dev nD) : S100000x3.Idx → EReal :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Entry (p, q) of the block stored at point t, for a row p inside the array, is the row function at the
    array's row t × 7168 + p. -/
theorem stored_row_eq (c : Dev nD) (t : Fin cfg0.N) (p : Fin 7168) (hp : p.val < win0_7.xsize (grid0.coords t) 0)
    (r : Fin 100000) (hr : r.val = t.val * 7168 + p.val) (q : Fin 3) :
    stored (F := Ideal) (nblk8 m c t) (cblk8 m c t) (rblk8 m c t) (iblk m c 3 t) (iblk m c 4 t) (iblk m c 5 t) (iblk m c 6 t) (ix2 p q)
      = Gm m c (ix2 r q) := by
  unfold stored Gm Cert.Spec.G
  rw [Cert.KernelIdeal.PayRow.pay_row]
  -- the nine arguments of the row function, one by one: what the buffers hold is what the argument arrays hold
  have a1 : (fun k : Fin 256 => View.ld (nblk8 m c t) rIn (ix2 p k)) = fun k => m ((c : Thread nD τ).loc main_arg0) (ix2 r k) :=
    funext fun k => (congrFun (ld_rIn _) _).trans (nrow m c t p hp r hr k)
  have a2 : (fun k : Fin 256 => View.ld (cblk8 m c t) rIn (ix2 p k)) = fun k => m ((c : Thread nD τ).loc main_arg1) (ix2 r k) :=
    funext fun k => (congrFun (ld_rIn _) _).trans (crow m c t p hp r hr k)
  have a3 : (fun k : Fin 256 => View.ld (rblk8 m c t) rIn (ix2 p k)) = fun k => m ((c : Thread nD τ).loc main_arg2) (ix2 r k) :=
    funext fun k => (congrFun (ld_rIn _) _).trans (rrow m c t p hp r hr k)
  have a4 : (fun (k : Fin 512) (j : Fin 128) => Fin.addCases (fun k' : Fin 256 => View.ld (iblk m c 3 t : S256x512.Idx → EReal) rWn (ix2 k' j))
      (fun k' : Fin 256 => View.ld (iblk m c 3 t : S256x512.Idx → EReal) rWc (ix2 k' (Fin.castAdd 128 j))) k) = fun k j => m ((c : Thread nD τ).loc main_arg3) (ix2 k j) := by
    rw [iblk3_eq]; exact funext fun k => funext fun j => Wn_eq m c k j
  have a5 : (fun (k : Fin 512) (j : Fin 128) => Fin.addCases (fun k' : Fin 256 => View.ld (iblk m c 3 t : S256x512.Idx → EReal) rWr (ix2 k' j))
      (fun k' : Fin 256 => View.ld (iblk m c 3 t : S256x512.Idx → EReal) rWc (ix2 k' (Fin.natAdd 128 j))) k) = fun k j => m ((c : Thread nD τ).loc main_arg5) (ix2 k j) := by
    rw [iblk3_eq]; exact funext fun k => funext fun j => Wr_eq m c k j
  have a6 : (fun j : Fin 128 => View.ld (iblk m c 4 t : S1x256.Idx → EReal) rBn (ix2 (0 : Fin 1) j)) = fun j => m ((c : Thread nD τ).loc main_arg4) (ix1 j) := by
    rw [iblk4_eq]; exact funext fun j => bn_eq m c j
  have a7 : (fun j : Fin 128 => View.ld (iblk m c 4 t : S1x256.Idx → EReal) rBr (ix2 (0 : Fin 1) j)) = fun j => m ((c : Thread nD τ).loc main_arg6) (ix1 j) := by
    rw [iblk4_eq]; exact funext fun j => br_eq m c j
  have a8 : (fun k : Fin 256 => Fin.addCases (fun k' : Fin 128 => View.ld (iblk m c 5 t : S256x3.Idx → EReal) rDn (ix2 k' q))
      (fun k' : Fin 128 => View.ld (iblk m c 5 t : S256x3.Idx → EReal) rDr (ix2 k' q)) k) = fun k => m ((c : Thread nD τ).loc main_arg7) (ix2 k q) := by
    rw [iblk5_eq]; exact funext fun k => Wd_eq m c k q
  have a9 : View.ld (iblk m c 6 t : S1x3.Idx → EReal) rBd (ix2 (0 : Fin 1) q) = m ((c : Thread nD τ).loc main_arg8) (ix1 q) := by
    rw [iblk6_eq]; exact bd_eq m c q
  exact congr (congr (congr (congr (congr (congr (congr (congr (congrArg Cert.Spec.outRow a1) a2) a3) a4) a5) a6) a7) a8) a9

/-- What point t writes back is the block of the row function there. -/
theorem flushed_eq (c : Dev nD) (t : Fin cfg0.N) :
    (dats m 0 c).flushed 7 t = ((cfg0.win 7).blk t).view.read (Elt Ideal) (Gm m c) := by
  funext j
  obtain ⟨e0, e1⟩ := blk7_emb t j
  obtain ⟨x0, x1⟩ := xsize7 t
  have h0 : (j 0).val < win0_7.xsize (grid0.coords t) 0 := (j 0).isLt
  have h1 : (j 1).val < 3 := lt_of_lt_of_eq (j 1).isLt x1
  have h7 : (j 0).val < 7168 := by rw [x0] at h0; omega
  have hR : t.val * 7168 + (j 0).val < 100000 := by rw [x0] at h0; omega
  rw [View.read_apply]
  show (dats m 0 c).after 7 t (win0_7.xinj (grid0.coords t) j) = Gm m c ((win0_7.blk t).view.emb j)
  rw [after_7, out7_eq]
  have hx : win0_7.xinj (grid0.coords t) j = ix2 (⟨(j 0).val, h7⟩ : Fin 7168) (⟨(j 1).val, h1⟩ : Fin 3) :=
    funext fun a => Fin.ext (by match a with | ⟨0, _⟩ => rfl | ⟨1, _⟩ => rfl)
  have he : (win0_7.blk t).view.emb j = ix2 (⟨t.val * 7168 + (j 0).val, hR⟩ : Fin 100000) (⟨(j 1).val, h1⟩ : Fin 3) :=
    funext fun a => Fin.ext (by match a with | ⟨0, _⟩ => exact e0 | ⟨1, _⟩ => exact e1)
  rw [hx, he]
  exact stored_row_eq m c t _ h0 _ rfl _

/-- The result array after the run is the row function over the arguments. -/
theorem final (c : Dev nD) : (dats m 0 c).arrAt 7 cfg0.N = Gm m c :=
  (dats m 0 c).arrAt_eq_of_cover 7 (Gm m c) (fun t _ => flushed_eq m c t) cover

/-- Every weakly fair execution of the idealized kernel's program terminates with the result at the row function
    of the arguments and the nine arguments unchanged. -/
theorem run_value : θ_run defs (onTc (τ := τ) (main (F := Ideal))) ⟨m, fun _ => 0, ρ⟩ (fun r => ∀ c : Dev nD,
      r.2.mem ((c.tc : Thread nD τ).loc main_v10) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 7).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (by decide)).trans (V_main_arg3 m c),
      ((h c).2 main_arg4 (by decide)).trans (V_main_arg4 m c),
      ((h c).2 main_arg5 (by decide)).trans (V_main_arg5 m c),
      ((h c).2 main_arg6 (by decide)).trans (V_main_arg6 m c),
      ((h c).2 main_arg7 (by decide)).trans (V_main_arg7 m c),
      ((h c).2 main_arg8 (by decide)).trans (V_main_arg8 m c)⟩) (run_main m ρ)

end Cert.KernelIdeal.Hand

end
-- ==== Proof.RefValue.lean ====
/-
  The reference's result read index by index: two hidden layers, each the rectified affine image of a
  row of two concatenated inputs, and an output layer over the concatenation of the two hidden rows.
-/
import proofs.«122431_g32006096290012_cont_8to1_b_1154_27_alg».proof.Proof.Gen.ReferenceIdeal.Read
import proofs.«122431_g32006096290012_cont_8to1_b_1154_27_alg».proof.Proof.Spec
import Idealize.ShloMosaic.Lib.Pipeline.Value
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read Idealize.ShloMosaic Idealize.ShloMosaic.ValueIdx

/-- Two arrays of 256-wide rows laid side by side, read in the left half of a row: the first array's entry. -/
theorem cat512_left (a b : (⟨S100000x256, .f32⟩ : BufTy).Contents (Elt Ideal)) (j : S100000x512.Idx) (k : Fin 256)
    (hk : (j 1).val = k.val) :
    concatenate S100000x512 1 [⟨S100000x256, a⟩, ⟨S100000x256, b⟩] concatenates_S100000x256_S100000x256_S100000x512_d1 j
      = a (ix2 (j 0) k) :=
  concatenate_pair_apply_left 1 a b _ j rfl (ix2 (j 0) k)
    (fun c => match c with | ⟨0, _⟩ => rfl | ⟨1, _⟩ => hk.symm)

/-- The same, read in the right half of a row: the second array's entry, 256 columns to the left. -/
theorem cat512_right (a b : (⟨S100000x256, .f32⟩ : BufTy).Contents (Elt Ideal)) (j : S100000x512.Idx) (k : Fin 256)
    (hk : (j 1).val = 256 + k.val) :
    concatenate S100000x512 1 [⟨S100000x256, a⟩, ⟨S100000x256, b⟩] concatenates_S100000x256_S100000x256_S100000x512_d1 j
      = b (ix2 (j 0) k) :=
  concatenate_pair_apply_right 1 a b _ j rfl rfl (ix2 (j 0) k)
    (fun c hc => match c, hc with | ⟨0, _⟩, _ => rfl | ⟨1, _⟩, hc => absurd rfl hc)
    (by show k.val + 256 = (j 1).val; omega)

/-- A row of the joined array against a 512-row matrix: the left half against the upper 256 rows plus the right half
    against the lower 256. -/
theorem dot512_split (a c : (⟨S100000x256, .f32⟩ : BufTy).Contents (Elt Ideal)) (W : (⟨S512x128, .f32⟩ : BufTy).Contents (Elt Ideal))
    (i : S100000x128.Idx) :
    (∑ k : Fin 512, concatenate S100000x512 1 [⟨S100000x256, a⟩, ⟨S100000x256, c⟩] concatenates_S100000x256_S100000x256_S100000x512_d1 (lidx_main_v2 i k) * W (ridx_main_v2 i k))
      = (∑ k : Fin 256, a (ix2 (i 0) k) * W (ix2 (n0 := 512) (Fin.castAdd 256 k) (i 1)))
        + ∑ k : Fin 256, c (ix2 (i 0) k) * W (ix2 (n0 := 512) (Fin.natAdd 256 k) (i 1)) := by
  refine (Cert.Spec.sum_join 256 256 _).trans ?_
  congr 1
  · refine Finset.sum_congr rfl fun k _ => ?_
    have e : ridx_main_v2 i (Fin.castAdd 256 k) = ix2 (n0 := 512) (Fin.castAdd 256 k) (i 1) :=
      funext fun d => match d with | ⟨0, _⟩ => rfl | ⟨1, _⟩ => rfl
    rw [cat512_left a c _ k rfl, e]
    rfl
  · refine Finset.sum_congr rfl fun k _ => ?_
    have e : ridx_main_v2 i (Fin.natAdd 256 k) = ix2 (n0 := 512) (Fin.natAdd 256 k) (i 1) :=
      funext fun d => match d with | ⟨0, _⟩ => rfl | ⟨1, _⟩ => rfl
    rw [cat512_right a c _ k rfl, e]
    rfl

/-- The first hidden layer at an index: the rectified affine image of the row of `x0` beside the row of `x1`. -/
theorem hidden_first (x0 x1 : (⟨S100000x256, .f32⟩ : BufTy).Contents (Elt Ideal)) (x3 : (⟨S512x128, .f32⟩ : BufTy).Contents (Elt Ideal))
    (x4 : (⟨S128, .f32⟩ : BufTy).Contents (Elt Ideal)) (i : S100000x128.Idx) :
    val_main_v6 (F := Ideal) x0 x1 x3 x4 i
      = Cert.Spec.hid (fun k => x0 (ix2 (i 0) k)) (fun k => x1 (ix2 (i 0) k)) (fun k => x3 (ix2 k (i 1))) (x4 (ix1 (i 1))) := by
  have e : idx_main_v3 (idx_main_v4 i) = ix1 (i 1) := funext fun d => match d with | ⟨0, _⟩ => rfl
  rw [val_main_v6_apply, val_main_v5_apply, val_main_v2_apply, val_main_v4_apply, val_main_v3_apply,
    val_main_call0_v0_apply, val_main_call0_cst_apply, e]
  unfold val_main_v0
  rw [dot512_split]
  rfl

/-- The second hidden layer at an index: the rectified affine image of the row of `x2` beside the row of `x1`. -/
theorem hidden_second (x1 x2 : (⟨S100000x256, .f32⟩ : BufTy).Contents (Elt Ideal)) (x5 : (⟨S512x128, .f32⟩ : BufTy).Contents (Elt Ideal))
    (x6 : (⟨S128, .f32⟩ : BufTy).Contents (Elt Ideal)) (i : S100000x128.Idx) :
    val_main_v11 (F := Ideal) x1 x2 x5 x6 i
      = Cert.Spec.hid (fun k => x2 (ix2 (i 0) k)) (fun k => x1 (ix2 (i 0) k)) (fun k => x5 (ix2 k (i 1))) (x6 (ix1 (i 1))) := by
  have e : idx_main_v8 (idx_main_v9 i) = ix1 (i 1) := funext fun d => match d with | ⟨0, _⟩ => rfl
  rw [val_main_v11_apply, val_main_v10_apply, val_main_v7_apply, val_main_v9_apply, val_main_v8_apply,
    val_main_call1_v0_apply, val_main_call1_cst_apply, e]
  unfold val_main_v1
  rw [show (∑ k : Fin 512, concatenate S100000x512 1 [⟨S100000x256, x2⟩, ⟨S100000x256, x1⟩] concatenates_S100000x256_S100000x256_S100000x512_d1 (lidx_main_v7 i k) * x5 (ridx_main_v7 i k))
      = _ from dot512_split x2 x1 x5 i]
  rfl

/-- Two arrays of 128-wide rows laid side by side, read in the left half of a row: the first array's entry. -/
theorem cat256_left (a b : (⟨S100000x128, .f32⟩ : BufTy).Contents (Elt Ideal)) (j : S100000x256.Idx) (k : Fin 128)
    (hk : (j 1).val = k.val) :
    concatenate S100000x256 1 [⟨S100000x128, a⟩, ⟨S100000x128, b⟩] concatenates_S100000x128_S100000x128_S100000x256_d1 j
      = a (ix2 (j 0) k) :=
  concatenate_pair_apply_left 1 a b _ j rfl (ix2 (j 0) k)
    (fun c => match c with | ⟨0, _⟩ => rfl | ⟨1, _⟩ => hk.symm)

/-- The same, read in the right half of a row: the second array's entry, 128 columns to the left. -/
theorem cat256_right (a b : (⟨S100000x128, .f32⟩ : BufTy).Contents (Elt Ideal)) (j : S100000x256.Idx) (k : Fin 128)
    (hk : (j 1).val = 128 + k.val) :
    concatenate S100000x256 1 [⟨S100000x128, a⟩, ⟨S100000x128, b⟩] concatenates_S100000x128_S100000x128_S100000x256_d1 j
      = b (ix2 (j 0) k) :=
  concatenate_pair_apply_right 1 a b _ j rfl rfl (ix2 (j 0) k)
    (fun c hc => match c, hc with | ⟨0, _⟩, _ => rfl | ⟨1, _⟩, hc => absurd rfl hc)
    (by show k.val + 128 = (j 1).val; omega)

/-- A row of the two hidden rows laid side by side against a 256-row matrix: the first hidden row against the upper
    128 rows plus the second against the lower 128. -/
theorem dot256_split (a b : (⟨S100000x128, .f32⟩ : BufTy).Contents (Elt Ideal)) (W : (⟨S256x3, .f32⟩ : BufTy).Contents (Elt Ideal))
    (i : S100000x3.Idx) :
    (∑ k : Fin 256, concatenate S100000x256 1 [⟨S100000x128, a⟩, ⟨S100000x128, b⟩] concatenates_S100000x128_S100000x128_S100000x256_d1 (lidx_main_v13 i k) * W (ridx_main_v13 i k))
      = (∑ j : Fin 128, a (ix2 (i 0) j) * W (ix2 (n0 := 256) (Fin.castAdd 128 j) (i 1)))
        + ∑ j : Fin 128, b (ix2 (i 0) j) * W (ix2 (n0 := 256) (Fin.natAdd 128 j) (i 1)) := by
  refine (Cert.Spec.sum_join 128 128 _).trans ?_
  congr 1
  · refine Finset.sum_congr rfl fun j _ => ?_
    have e : ridx_main_v13 i (Fin.castAdd 128 j) = ix2 (n0 := 256) (Fin.castAdd 128 j) (i 1) :=
      funext fun d => match d with | ⟨0, _⟩ => rfl | ⟨1, _⟩ => rfl
    rw [cat256_left a b _ j rfl, e]
    rfl
  · refine Finset.sum_congr rfl fun j _ => ?_
    have e : ridx_main_v13 i (Fin.natAdd 128 j) = ix2 (n0 := 256) (Fin.natAdd 128 j) (i 1) :=
      funext fun d => match d with | ⟨0, _⟩ => rfl | ⟨1, _⟩ => rfl
    rw [cat256_right a b _ j rfl, e]
    rfl

/-- The reference's result, index by index, is the row-by-row value `Cert.Spec.G` of its nine arguments. -/
theorem ref_is_G (x0 x1 x2 : (⟨S100000x256, .f32⟩ : BufTy).Contents (Elt Ideal)) (x3 : (⟨S512x128, .f32⟩ : BufTy).Contents (Elt Ideal)) (x4 : (⟨S128, .f32⟩ : BufTy).Contents (Elt Ideal)) (x5 : (⟨S512x128, .f32⟩ : BufTy).Contents (Elt Ideal)) (x6 : (⟨S128, .f32⟩ : BufTy).Contents (Elt Ideal)) (x7 : (⟨S256x3, .f32⟩ : BufTy).Contents (Elt Ideal)) (x8 : (⟨S3, .f32⟩ : BufTy).Contents (Elt Ideal)) :
    Cert.ReferenceIdeal.Read.val_main_v16 (F := Ideal) x0 x1 x2 x3 x4 x5 x6 x7 x8 = Cert.Spec.G x0 x1 x2 x3 x4 x5 x6 x7 x8 := by
  funext i
  have e : idx_main_v14 (idx_main_v15 i) = ix1 (i 1) := funext fun d => match d with | ⟨0, _⟩ => rfl
  rw [val_main_v16_apply, val_main_v13_apply, val_main_v15_apply, val_main_v14_apply, e]
  unfold val_main_v12
  rw [dot256_split]
  simp only [hidden_first, hidden_second]
  rfl

end Cert.ReferenceIdeal.RefValue

end
-- ==== Proof.lean ====
/-
  The certificate of a fused two-branch perceptron over 100000 rows. For each row, with n, c, r the row's entries
  of `neighbor`, `current`, `remote`:
      h₁ = max([n | c] · W_n + b_n, 0),   h₂ = max([r | c] · W_r + b_r, 0),   out = [h₁ | h₂] · W_d + b_d.
  The reference joins the rows and multiplies by the whole matrices. The kernel never joins anything: it splits each
  matrix into its upper and lower half, packs the four first-layer halves into one operand, and adds the half products,
  n · W_n↑ + c · W_n↓ and so on. The two agree because a sum over a joined axis is the sum over its two parts, which
  on the extended reals is only commutativity and associativity of +: no entry needs to be finite, and the
  precondition is never opened.

  The launch walks fourteen blocks of 7168 rows; the last overhangs the arrays' end, so its transfers are cut there
  and the staging rows past the end hold whatever was there. A result row depends on the same row of the inputs
  only, so those rows reach no row that is written back: at the idealized instance the rows inside the arrays are the
  same whatever the tail holds, and the result array is the row function at every row. At the word level a matrix
  product is an opaque function of its whole operands, so the frame there is proved from a description of the
  staging buffers that says nothing of their contents: the body needs none, and the arguments are never written.
-/
import proofs.«122431_g32006096290012_cont_8to1_b_1154_27_alg».proof.Defs
import proofs.«122431_g32006096290012_cont_8to1_b_1154_27_alg».proof.Proof.Gen.Kernel
import proofs.«122431_g32006096290012_cont_8to1_b_1154_27_alg».proof.Proof.Gen.KernelIdeal
import proofs.«122431_g32006096290012_cont_8to1_b_1154_27_alg».proof.Proof.Gen.ReferenceIdeal
import proofs.«122431_g32006096290012_cont_8to1_b_1154_27_alg».proof.Proof.Gen.Pre_finite_inputs
import proofs.«122431_g32006096290012_cont_8to1_b_1154_27_alg».proof.Proof.KernelFrame
import proofs.«122431_g32006096290012_cont_8to1_b_1154_27_alg».proof.Proof.KIdealValue
import proofs.«122431_g32006096290012_cont_8to1_b_1154_27_alg».proof.Proof.RefValue
import Idealize.ShloMosaic.Adequacy
import Idealize.ShloMosaic.Init

noncomputable section

namespace Cert.Proof

open Idealize.ShloMosaic Idealize.SL.Sem

/-- The word-level kernel runs to the end and leaves its nine arguments as they were. -/
theorem frame_k : Cert.frame_Kernel := Cert.Kernel.Hand.frame

/-- So does the idealized kernel: its value run, the result dropped. -/
theorem frame_ki : Cert.frame_KernelIdeal := fun m ρ _ =>
  (θ_run Cert.KernelIdeal.defs _ _).mono (fun _ h c => (h c).2) (Cert.KernelIdeal.Hand.run_value m ρ)

/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the idealized instance: nothing was rewritten. -/
theorem preserves : Cert.preserves_Kernel_KernelIdeal := trivial

/-- From memories that agree on the arguments both programs end with the row function of the arguments. -/
theorem algebraic : Cert.algebraic_KernelIdeal_ReferenceIdeal := by
  intro m ρ m' ρ' _ hagree
  refine ⟨fun c => Cert.KernelIdeal.Hand.Gm m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  exact (Cert.ReferenceIdeal.Read.val_main_v16_eq _ _ _ _ _ _ _ _ _).trans (Cert.ReferenceIdeal.RefValue.ref_is_G _ _ _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
